-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v62) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x96 : Shape := ⟨2, ![512, 96]⟩
abbrev S96 : Shape := ⟨1, ![96]⟩
abbrev S96x32 : Shape := ⟨2, ![96, 32]⟩
abbrev S32 : Shape := ⟨1, ![32]⟩
abbrev S2x800000 : Shape := ⟨2, ![2, 800000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x96 : S_.BroadcastsInDim S512x96 (![] : Fin 0 → Fin S512x96.rank)
  reducesTo_S512x96_S_d0_1 : S512x96.ReducesTo [0, 1] S_
  bcast_S_S96 : S_.BroadcastsInDim S96 (![] : Fin 0 → Fin S96.rank)
  reducesTo_S96_S_d0 : S96.ReducesTo [0] S_
  bcast_S_S96x32 : S_.BroadcastsInDim S96x32 (![] : Fin 0 → Fin S96x32.rank)
  reducesTo_S96x32_S_d0_1 : S96x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_arg5 : FVec F S96x32 .f32) (main_arg6 : FVec F S32 .f32) (main_v13 : IVec S_ 1) (main_v16 : IVec S96x32 1) : IVec S_ 1 :=
  let main_c_5 : IVec S_ 1 := constantI S_ 1 1#1
  let main_v17 : IVec S_ 1 := (fun x v => Host.reduce IntOp.andi x v reducesTo_S96x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S96x32 .f32 := Host.absf main_arg5
  let main_cst_8 : FVec F S_ .f32 := constant S_ .f32 0x7F800000#32
  let main_v25 : FVec F S96x32 .f32 := broadcastInDim S96x32 ![] bcast_S_S96x32 main_cst_8
  let main_v26 : IVec S96x32 1 := cmpf .olt main_v24 main_v25
  let main_c_9 : IVec S_ 1 := constantI S_ 1 1#1
  let main_v27 : IVec S_ 1 := (fun x v => Host.reduce IntOp.andi x v reducesTo_S96x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S50000x512 .f32) (main_arg1 : FVec F S512x96 .f32) (main_arg2 : FVec F S96 .f32) (main_arg3 : FVec F S96x32 .f32) (main_arg4 : FVec F S32 .f32) (main_arg5 : FVec F S96x32 .f32) (main_arg6 : FVec F S32 .f32) (main_arg7 : IVec S2x800000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x96 .f32 := Host.absf main_arg1
  let main_cst_0 : FVec F S_ .f32 := constant S_ .f32 0x7F800000#32
  let main_v5 : FVec F S512x96 .f32 := broadcastInDim S512x96 ![] bcast_S_S512x96 main_cst_0
  let main_v6 : IVec S512x96 1 := cmpf .olt main_v4 main_v5
  let main_c_1 : IVec S_ 1 := constantI S_ 1 1#1
  let main_v7 : IVec S_ 1 := (fun x v => Host.reduce IntOp.andi x v reducesTo_S512x96_S_d0_1 h_S_) main_v6 main_c_1
  let main_v8 : IVec S_ 1 := andi main_v3 main_v7
  let main_v9 : FVec F S96 .f32 := Host.absf main_arg2
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x32 .f32 := Host.absf main_arg3
  let main_cst_4 : FVec F S_ .f32 := constant S_ .f32 0x7F800000#32
  let main_v15 : FVec F S96x32 .f32 := broadcastInDim S96x32 ![] bcast_S_S96x32 main_cst_4
  let main_v16 : IVec S96x32 1 := cmpf .olt main_v14 main_v15
  fn_part1 (F := F) main_arg4 main_arg5 main_arg6 main_v13 main_v16
-- ==== Kernel.lean ====
abbrev S50000x512 : Shape := ⟨2, ![50000, 512]⟩
abbrev S512x96 : Shape := ⟨2, ![512, 96]⟩
abbrev S96 : Shape := ⟨1, ![96]⟩
abbrev S96x32 : Shape := ⟨2, ![96, 32]⟩
abbrev S32 : Shape := ⟨1, ![32]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x96 : Shape := ⟨2, ![50000, 96]⟩
abbrev S2000x512 : Shape := ⟨2, ![2000, 512]⟩
abbrev S2000x96 : Shape := ⟨2, ![2000, 96]⟩
abbrev S800000x96 : Shape := ⟨2, ![800000, 96]⟩
abbrev S1x96 : Shape := ⟨2, ![1, 96]⟩
abbrev S2000x1 : Shape := ⟨2, ![2000, 1]⟩
abbrev S96x64 : Shape := ⟨2, ![96, 64]⟩
abbrev S64 : Shape := ⟨1, ![64]⟩
abbrev S1x64 : Shape := ⟨2, ![1, 64]⟩
abbrev S50000x64 : Shape := ⟨2, ![50000, 64]⟩
abbrev S2000x64 : Shape := ⟨2, ![2000, 64]⟩
abbrev S800000x64 : Shape := ⟨2, ![800000, 64]⟩
abbrev S50000x32 : Shape := ⟨2, ![50000, 32]⟩

abbrev nBuf : Space → Nat
  | .hbm => 84
  | .vmem => 28
  | .smem => 0
  | _ => 0

abbrev bufTy : (tb : Table) → Fin (tcTables nBuf tb) → BufTy
  | .hbm, ⟨0, _⟩ => ⟨S50000x512, .f32⟩
  | .hbm, ⟨1, _⟩ => ⟨S512x96, .f32⟩
  | .hbm, ⟨2, _⟩ => ⟨S96, .f32⟩
  | .hbm, ⟨3, _⟩ => ⟨S96x32, .f32⟩
  | .hbm, ⟨4, _⟩ => ⟨S32, .f32⟩
  | .hbm, ⟨5, _⟩ => ⟨S96x32, .f32⟩
  | .hbm, ⟨6, _⟩ => ⟨S32, .f32⟩
  | .hbm, ⟨7, _⟩ => ⟨S2x800000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000, .f32⟩
  | .hbm, ⟨42, _⟩ => ⟨S800000, .f32⟩
  | .hbm, ⟨43, _⟩ => ⟨S800000x1, .f32⟩
  | .hbm, ⟨44, _⟩ => ⟨S50000x96, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x96, .f32⟩
  | .hbm, ⟨54, _⟩ => ⟨S800000x96, .f32⟩
  | .hbm, ⟨55, _⟩ => ⟨S800000x96, .f32⟩
  | .hbm, ⟨56, _⟩ => ⟨S_, .f32⟩
  | .hbm, ⟨57, _⟩ => ⟨S50000x96, .f32⟩
  | .hbm, ⟨58, _⟩ => ⟨S800000x1, .i32⟩
  | .hbm, ⟨59, _⟩ => ⟨S50000x96, .f32⟩
  | .hbm, ⟨60, _⟩ => ⟨S1x96, .f32⟩
  | .hbm, ⟨61, _⟩ => ⟨S50000x96, .f32⟩
  | .hbm, ⟨62, _⟩ => ⟨S96x64, .f32⟩
  | .hbm, ⟨63, _⟩ => ⟨S64, .f32⟩
  | .hbm, ⟨64, _⟩ => ⟨S1x64, .f32⟩
  | .hbm, ⟨65, _⟩ => ⟨S50000x64, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x64, .f32⟩
  | .hbm, ⟨75, _⟩ => ⟨S800000x64, .f32⟩
  | .hbm, ⟨76, _⟩ => ⟨S800000x64, .f32⟩
  | .hbm, ⟨77, _⟩ => ⟨S_, .f32⟩
  | .hbm, ⟨78, _⟩ => ⟨S50000x64, .f32⟩
  | .hbm, ⟨79, _⟩ => ⟨S800000x1, .i32⟩
  | .hbm, ⟨80, _⟩ => ⟨S50000x64, .f32⟩
  | .hbm, ⟨81, _⟩ => ⟨S50000x64, .f32⟩
  | .hbm, ⟨82, _⟩ => ⟨S50000x32, .f32⟩
  | .hbm, ⟨83, _⟩ => ⟨S50000x32, .f32⟩
  | .local _ .vmem, ⟨0, _⟩ => ⟨S2000x512, .f32⟩
  | .local _ .vmem, ⟨1, _⟩ => ⟨S2000x512, .f32⟩
  | .local _ .vmem, ⟨2, _⟩ => ⟨S512x96, .f32⟩
  | .local _ .vmem, ⟨3, _⟩ => ⟨S2000x96, .f32⟩
  | .local _ .vmem, ⟨4, _⟩ => ⟨S2000x96, .f32⟩
  | .local _ .vmem, ⟨5, _⟩ => ⟨S2000x96, .f32⟩
  | .local _ .vmem, ⟨6, _⟩ => ⟨S2000x96, .f32⟩
  | .local _ .vmem, ⟨7, _⟩ => ⟨S2000x96, .f32⟩
  | .local _ .vmem, ⟨8, _⟩ => ⟨S2000x96, .f32⟩
  | .local _ .vmem, ⟨9, _⟩ => ⟨S2000x1, .f32⟩
  | .local _ .vmem, ⟨10, _⟩ => ⟨S2000x1, .f32⟩
  | .local _ .vmem, ⟨11, _⟩ => ⟨S1x96, .f32⟩
  | .local _ .vmem, ⟨12, _⟩ => ⟨S2000x96, .f32⟩
  | .local _ .vmem, ⟨13, _⟩ => ⟨S2000x96, .f32⟩
  | .local _ .vmem, ⟨14, _⟩ => ⟨S2000x96, .f32⟩
  | .local _ .vmem, ⟨15, _⟩ => ⟨S2000x96, .f32⟩
  | .local _ .vmem, ⟨16, _⟩ => ⟨S96x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x1, .f32⟩
  | .local _ .vmem, ⟨24, _⟩ => ⟨S2000x1, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x96 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S800000_S800000x1 : S800000.ShapeCasts S800000x1
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x96_S512x96_0_0 : ∀ a, (![0, 0] : Fin 2 → Nat) a + S512x96.size a ≤ S512x96.size a
  h_S512x96 : 0 < S512x96.numel
  inb_S2000x96_S2000x96_0_0 : ∀ a, (![0, 0] : Fin 2 → Nat) a + S2000x96.size a ≤ S2000x96.size a
  h_S2000x96 : 0 < S2000x96.numel
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  shapeCasts_S96_S1x96 : S96.ShapeCasts S1x96
  shapeCasts_S2000x96_S2000x96 : S2000x96.ShapeCasts S2000x96
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x96 : S2000x1.Broadcasts S2000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S2000x96 : S1x96.Broadcasts S2000x96
  concatenates_S96x32_S96x32_S96x64_d1 : Shape.Concatenates [S96x32, S96x32] S96x64 1
  concatenates_S32_S32_S64_d0 : Shape.Concatenates [S32, S32] S64 0
  shapeCasts_S64_S1x64 : S64.ShapeCasts S1x64
  inb_S96x64_S96x64_0_0 : ∀ a, (![0, 0] : Fin 2 → Nat) a + S96x64.size a ≤ S96x64.size a
  h_S96x64 : 0 < S96x64.numel
  shapeCasts_S96x64_S96x64 : S96x64.ShapeCasts S96x64
  inb_S2000x64_S2000x64_0_0 : ∀ a, (![0, 0] : Fin 2 → Nat) a + S2000x64.size a ≤ S2000x64.size a
  h_S2000x64 : 0 < S2000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  slices_S50000x64_S50000x32_0_0 : S50000x64.Slices ![0, 0] S50000x32
  slices_S50000x64_S50000x32_0_32 : S50000x64.Slices ![0, 32] S50000x32
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x512_S512x96_S2000x96_1_0_0_1_n_n_wf : DotDims.WF S2000x512 S512x96 S2000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S2000x96_S96x64_S2000x64_1_0_0_1_n_n_wf : DotDims.WF S2000x96 S96x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x96.size a ≤ S512x96.size a
  hwx0_1 : ∀ i : grid0.Coords, EltTy.bits .f32 = 32 ∨ (Rect.block (s := S512x96) S512x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x96.size a ≤ S50000x96.size a
  hwx0_2 : ∀ i : grid0.Coords, EltTy.bits .f32 = 32 ∨ (Rect.block (s := S50000x96) S2000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x96.size a ≤ S50000x96.size a
  hwx1_0 : ∀ i : grid1.Coords, EltTy.bits .f32 = 32 ∨ (Rect.block (s := S50000x96) S2000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x96.size a ≤ S50000x96.size a
  hwx1_1 : ∀ i : grid1.Coords, EltTy.bits .f32 = 32 ∨ (Rect.block (s := S50000x96) S2000x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x96.size a ≤ S50000x96.size a
  hwx1_4 : ∀ i : grid1.Coords, EltTy.bits .f32 = 32 ∨ (Rect.block (s := S50000x96) S2000x96.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x96.size a ≤ S50000x96.size a
  hwx2_0 : ∀ i : grid2.Coords, EltTy.bits .f32 = 32 ∨ (Rect.block (s := S50000x96) S2000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x64.size a ≤ S96x64.size a
  hwx2_1 : ∀ i : grid2.Coords, EltTy.bits .f32 = 32 ∨ (Rect.block (s := S96x64) S96x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S50000x64.size a
  hwx3_4 : ∀ i : grid3.Coords, EltTy.bits .f32 = 32 ∨ (Rect.block (s := S50000x64) S2000x64.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x512_S512x96_S2000x96_1_0_0_1_n_n : DotDims S2000x512 S512x96 S2000x96 where
  lhsContracting := [1]
  rhsContracting := [0]
  lhsNonContracting := [0]
  rhsNonContracting := [1]
  lhsBatch := []
  rhsBatch := []
  wf := dot_S2000x512_S512x96_S2000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S2000x96_S96x64_S2000x64_1_0_0_1_n_n : DotDims S2000x96 S96x64 S2000x64 where
  lhsContracting := [1]
  rhsContracting := [0]
  lhsNonContracting := [0]
  rhsNonContracting := [1]
  lhsBatch := []
  rhsBatch := []
  wf := dot_S2000x96_S96x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S2000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S2000x96.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S2000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S96x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v46) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x512 : Shape := ⟨2, ![50000, 512]⟩
abbrev S512x96 : Shape := ⟨2, ![512, 96]⟩
abbrev S96 : Shape := ⟨1, ![96]⟩
abbrev S96x32 : Shape := ⟨2, ![96, 32]⟩
abbrev S32 : Shape := ⟨1, ![32]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x96 : Shape := ⟨2, ![50000, 96]⟩
abbrev S800000x96 : Shape := ⟨2, ![800000, 96]⟩
abbrev S50000x1 : Shape := ⟨2, ![50000, 1]⟩
abbrev S1x96 : Shape := ⟨2, ![1, 96]⟩
abbrev S50000x32 : Shape := ⟨2, ![50000, 32]⟩
abbrev S800000x32 : Shape := ⟨2, ![800000, 32]⟩
abbrev S1x32 : Shape := ⟨2, ![1, 32]⟩

abbrev nBuf : Space → Nat
  | .hbm => 157
  | .vmem => 0
  | .smem => 0
  | _ => 0

abbrev hbmTy0_0 (i : Nat) : BufTy := match i % 128 with
  | 0 => ⟨S50000x512, .f32⟩
  | 1 => ⟨S512x96, .f32⟩
  | 2 => ⟨S96, .f32⟩
  | 3 => ⟨S96x32, .f32⟩
  | 4 => ⟨S32, .f32⟩
  | 5 => ⟨S96x32, .f32⟩
  | 6 => ⟨S32, .f32⟩
  | 7 => ⟨S2x800000, .i32⟩
  | 8 => ⟨S1x800000, .i32⟩
  | 9 => ⟨S800000, .i32⟩
  | 10 => ⟨S1x800000, .i32⟩
  | 11 => ⟨S800000, .i32⟩
  | 12 => ⟨S_, .f32⟩
  | 13 => ⟨S800000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .f32⟩
  | 21 => ⟨S50000, .f32⟩
  | 22 => ⟨S50000x96, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x96, .f32⟩
  | 51 => ⟨S800000x1, .f32⟩
  | 52 => ⟨S800000x96, .f32⟩
  | 53 => ⟨S800000x96, .f32⟩
  | 54 => ⟨S_, .f32⟩
  | 55 => ⟨S50000x96, .f32⟩
  | 56 => ⟨S800000x1, .i32⟩
  | 57 => ⟨S50000x96, .f32⟩
  | 58 => ⟨S50000, .f32⟩
  | 59 => ⟨S50000x1, .f32⟩
  | 60 => ⟨S50000x96, .f32⟩
  | 61 => ⟨S50000x96, .f32⟩
  | 62 => ⟨S50000x96, .f32⟩
  | 63 => ⟨S1x96, .f32⟩
  | 64 => ⟨S50000x96, .f32⟩
  | 65 => ⟨S50000x96, .f32⟩
  | 66 => ⟨S_, .f32⟩
  | 67 => ⟨S50000x96, .f32⟩
  | 68 => ⟨S50000x96, .f32⟩
  | 69 => ⟨S50000x32, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000, .f32⟩
  | 88 => ⟨S800000, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x32, .f32⟩
  | 98 => ⟨S800000x1, .f32⟩
  | 99 => ⟨S800000x32, .f32⟩
  | 100 => ⟨S800000x32, .f32⟩
  | 101 => ⟨S_, .f32⟩
  | 102 => ⟨S50000x32, .f32⟩
  | 103 => ⟨S800000x1, .i32⟩
  | 104 => ⟨S50000x32, .f32⟩
  | 105 => ⟨S50000, .f32⟩
  | 106 => ⟨S50000x1, .f32⟩
  | 107 => ⟨S50000x32, .f32⟩
  | 108 => ⟨S50000x32, .f32⟩
  | 109 => ⟨S50000x32, .f32⟩
  | 110 => ⟨S1x32, .f32⟩
  | 111 => ⟨S50000x32, .f32⟩
  | 112 => ⟨S50000x32, .f32⟩
  | 113 => ⟨S50000x32, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000, .f32⟩
  | 123 => ⟨S_, .i32⟩
  | 124 => ⟨S800000, .i32⟩
  | 125 => ⟨S800000, .i1⟩
  | 126 => ⟨S_, .i32⟩
  | 127 => ⟨S800000, .i32⟩
  | _ => ⟨S50000x512, .f32⟩

abbrev hbmTy0_1 (i : Nat) : BufTy := match i % 128 with
  | 0 => ⟨S800000, .i32⟩
  | 1 => ⟨S800000, .i32⟩
  | 2 => ⟨S800000x1, .i32⟩
  | 3 => ⟨S800000, .f32⟩
  | 4 => ⟨S800000, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x32, .f32⟩
  | 14 => ⟨S800000x1, .f32⟩
  | 15 => ⟨S800000x32, .f32⟩
  | 16 => ⟨S800000x32, .f32⟩
  | 17 => ⟨S_, .f32⟩
  | 18 => ⟨S50000x32, .f32⟩
  | 19 => ⟨S800000x1, .i32⟩
  | 20 => ⟨S50000x32, .f32⟩
  | 21 => ⟨S50000, .f32⟩
  | 22 => ⟨S50000x1, .f32⟩
  | 23 => ⟨S50000x32, .f32⟩
  | 24 => ⟨S50000x32, .f32⟩
  | 25 => ⟨S50000x32, .f32⟩
  | 26 => ⟨S1x32, .f32⟩
  | 27 => ⟨S50000x32, .f32⟩
  | 28 => ⟨S50000x32, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_12 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_c_15 : Ref sig .tc := ⟨.hbm, 114, rfl⟩
abbrev main_v87 : Ref sig .tc := ⟨.hbm, 115, rfl⟩
abbrev main_v88 : Ref sig .tc := ⟨.hbm, 116, rfl⟩
abbrev main_c_16 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_c_17 : Ref sig .tc := ⟨.hbm, 123, rfl⟩
abbrev main_v94 : Ref sig .tc := ⟨.hbm, 124, rfl⟩
abbrev main_v95 : Ref sig .tc := ⟨.hbm, 125, rfl⟩
abbrev main_c_18 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_c_19 : Ref sig .tc := ⟨.hbm, 133, rfl⟩
abbrev main_v102 : Ref sig .tc := ⟨.hbm, 134, rfl⟩
abbrev main_v103 : Ref sig .tc := ⟨.hbm, 135, rfl⟩
abbrev main_c_20 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_21 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S800000x1_S800000x32_0_1 : S800000x1.BroadcastsInDim S800000x32 (![0, 1] : Fin 2 → Fin S800000x32.rank)
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S800000x1_S800000_n_0_0_1_wf : ScatterDims.WF S50000 S800000x1 S800000 [] [0] [0] 1
  dot_S50000x512_S512x96_S50000x96_1_0_0_1_n_n_wf : DotDims.WF S50000x512 S512x96 S50000x96 [1] [0] [0] [1] [] []
  gather_S50000_S800000x1_S800000_n_0_n_n_0_1_1_wf : GatherDims.WF S50000 S800000x1 S800000 [] [0] [] [0] [] 1 ![1]
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x32_S50000x32_1_0_0_1_n_n_wf : DotDims.WF S50000x96 S96x32 S50000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x512_S512x96_S50000x96_1_0_0_1_n_n : DotDims S50000x512 S512x96 S50000x96 where
  lhsContracting := [1]
  rhsContracting := [0]
  lhsNonContracting := [0]
  rhsNonContracting := [1]
  lhsBatch := []
  rhsBatch := []
  wf := dot_S50000x512_S512x96_S50000x96_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x32_S50000x32_1_0_0_1_n_n : DotDims S50000x96 S96x32 S50000x32 where
  lhsContracting := [1]
  rhsContracting := [0]
  lhsNonContracting := [0]
  rhsNonContracting := [1]
  lhsBatch := []
  rhsBatch := []
  wf := dot_S50000x96_S96x32_S50000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf

class Facts : Prop extends Facts₀ where

variable [Facts]
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.Region0.lean ====
/-
  Region 0 (the first dense layer's matrix product), read as values at the extended reals.

  The region's grid has 25 points; point t multiplies rows 2000·t … 2000·t + 1999 of the left array (all 512 columns)
  by the whole 512×96 right array and writes the 2000×96 block of rows 2000·t … of the output array. A change of float
  format is the identity at the extended reals and the product accumulates from zero, so entry (p, q) of the block is the
  sum over κ of left (2000·t + p, κ) · right (κ, q); the 25 blocks tile the output array, which therefore ends holding the
  plain matrix product of the two arrays as the region finds them.
-/
import proofs.«174296_j13417477833490_1_alg».proof.Proof.Gen.KernelIdeal.Frame
import proofs.«174296_j13417477833490_1_alg».proof.Proof.LibPlainDot
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.RegionVal

open Cert.KernelIdeal Cert.KernelIdeal.Gen

/-- The plain product of an M×K and a K×N array of extended reals. -/
def plainProd {M K N : Nat} (l : (⟨2, ![M, K]⟩ : Shape).Idx → EReal) (r : (⟨2, ![K, N]⟩ : Shape).Idx → EReal) :
    (⟨2, ![M, N]⟩ : Shape).Idx → EReal :=
  fun j => ∑ κ : Fin K, l (ix2 (j 0) κ) * r (ix2 κ (j 1))

theorem plainProd_apply {M K N : Nat} (l : (⟨2, ![M, K]⟩ : Shape).Idx → EReal) (r : (⟨2, ![K, N]⟩ : Shape).Idx → EReal)
    (p : Fin M) (q : Fin N) : plainProd l r (ix2 p q) = ∑ κ : Fin K, l (ix2 p κ) * r (ix2 κ q) := rfl

theorem hz2 : (![0, 0] : Fin 2 → Nat) = fun _ => 0 := funext fun a => by fin_cases a <;> rfl

variable (V : (c : Dev nD) → (b : Ref sig .tc) → Buf (Elt Ideal) ((c : Thread nD τ).loc b))

/-- The left array as region 0 finds it. -/
abbrev lhs0 (c : Dev nD) : S50000x512.Idx → EReal := V c main_arg0
/-- The right array as region 0 finds it. -/
abbrev rhs0 (c : Dev nD) : S512x96.Idx → EReal := V c main_arg1

/-- The body's value at (p, q): the product of the loaded blocks, summed over the contracted coordinate. -/
theorem pay0_apply (x : Vec Ideal S2000x512 .f32) (w : Vec Ideal S512x96 .f32) (p : Fin 2000) (q : Fin 96) :
    k0_pay1 (F := Ideal) x w (ix2 p q) = ∑ κ : Fin 512, (x (ix2 p κ) : EReal) * (w (ix2 κ q) : EReal) := by
  unfold k0_pay1
  exact PlainDot.matmul_zero_plain dot_S2000x512_S512x96_S2000x96_1_0_0_1_n_n ⟨rfl, rfl, rfl, rfl, rfl, rfl⟩ none _ _ p q

/-- The same at a general index of the block. -/
theorem pay0_read (x : Vec Ideal S2000x512 .f32) (w : Vec Ideal S512x96 .f32) (j : S2000x96.Idx) :
    k0_pay1 (F := Ideal) x w j = ∑ κ : Fin 512, (x (ix2 (j 0) κ) : EReal) * (w (ix2 κ (j 1)) : EReal) := by
  conv_lhs => rw [eq_ix2 j]
  exact pay0_apply x w (j 0) (j 1)

/-- The printed index maps over the grid: the left and the output window move one block of rows per point, the right
    window stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point t is rows 2000·t … of the left array. -/
theorem iblk0_0_apply (c : Dev nD) (t : Fin cfg0.N) (p : Fin 2000) (κ : Fin 512) (k : S50000x512.Idx)
    (hk0 : (k 0).val = t.val * 2000 + p.val) (hk1 : (k 1).val = κ.val) :
    (iblk0 V c 0 t : Vec Ideal S2000x512 .f32) (ix2 p κ) = lhs0 V c k := by
  obtain ⟨e0, e1, -, -, -, -⟩ := idx_facts0 t
  unfold iblk0
  rw [View.read_apply]
  show V c main_arg0 _ = V c main_arg0 _
  congr 1
  funext a
  apply Fin.ext
  match a with
  | ⟨0, _⟩ => show win0_0.index t (0 : Fin 2) * 2000 + 1 * p.val = (k 0).val; rw [e0, hk0]; omega
  | ⟨1, _⟩ => show win0_0.index t (1 : Fin 2) * 512 + 1 * κ.val = (k 1).val; rw [e1, hk1]; omega

/-- The right window's block at every point is the whole right array. -/
theorem iblk0_1_apply (c : Dev nD) (t : Fin cfg0.N) (κ : Fin 512) (q : Fin 96) :
    (iblk0 V c 1 t : Vec Ideal S512x96 .f32) (ix2 κ q) = rhs0 V c (ix2 κ q) := by
  obtain ⟨-, -, e2, e3, -, -⟩ := idx_facts0 t
  unfold iblk0
  rw [View.read_apply]
  show V c main_arg1 _ = V c main_arg1 _
  congr 1
  funext a
  apply Fin.ext
  match a with
  | ⟨0, _⟩ => show win0_1.index t (0 : Fin 2) * 512 + 1 * κ.val = κ.val; rw [e2]; omega
  | ⟨1, _⟩ => show win0_1.index t (1 : Fin 2) * 96 + 1 * q.val = q.val; rw [e3]; omega

/-- What point t writes back is block t of the plain product of the two arrays. -/
theorem flushed0_eq (c : Dev nD) (t : Fin cfg0.N) :
    (dat0 (F := Ideal) V c).flushed 2 t = ((cfg0.win 2).blk t).view.read (Elt Ideal) (plainProd (lhs0 V c) (rhs0 V c)) := by
  show (cfg0.win 2).cut (grid0.coords t) ((dat0 V c).after 2 t) = _
  rw [after0_2]
  unfold out0_2
  rw [View.canon_unit_zero hz2]
  simp only [View.ld_unit_zero (S := S2000x512) hz2, View.ld_unit_zero (S := S512x96) hz2]
  obtain ⟨-, -, -, -, e4, e5⟩ := idx_facts0 t
  funext j
  show k0_pay1 (F := Ideal) (iblk0 V c 0 t) (iblk0 V c 1 t) j
      = plainProd (lhs0 V c) (rhs0 V c) (((cfg0.win 2).blk t).view.emb j)
  refine (pay0_read _ _ j).trans ?_
  unfold plainProd
  refine Finset.sum_congr rfl fun κ _ => ?_
  rw [iblk0_1_apply V c t κ (j 1)]
  congr 1
  · refine iblk0_0_apply V c t (j 0) κ _ ?_ rfl
    show win0_2.index t (0 : Fin 2) * 2000 + 1 * (j 0).val = t.val * 2000 + (j 0).val
    rw [e4]; omega
  · congr 1
    funext a
    apply Fin.ext
    match a with
    | ⟨0, _⟩ => rfl
    | ⟨1, _⟩ => show (j 1).val = win0_2.index t (1 : Fin 2) * 96 + 1 * (j 1).val; rw [e5]; omega

/-- An index of the output array is in point t's block iff each coordinate is in the block's range on its axis. -/
theorem mem_blk0 (t : Fin cfg0.N) (i : S50000x96.Idx) :
    i ∈ ((cfg0.win 2).blk t).view.set ↔ ∀ a : Fin 2, win0_2.index t a * S2000x96.size a ≤ (i a).val ∧ (i a).val < win0_2.index t a * S2000x96.size a + S2000x96.size a := by
  show i ∈ ((View.whole main_v29).slice (win0_2.rect t)).set ↔ _
  rw [View.set_slice_whole, Rect.mem_set_unit]
  exact Iff.rfl

/-- Every block index 0 … 24 is some point's. -/
theorem idx_onto0 : ∀ q0 : Fin 25, ∃ t : Fin cfg0.N, t.val = q0.val :=
  (by decide +kernel : ∀ q0 : Fin 25, ∃ t : Fin grid0.N, t.val = q0.val)

/-- Every index of the output array is in some point's block: row r is in the block of point r / 2000. -/
theorem cover0 (i : S50000x96.Idx) : ∃ t : Fin cfg0.N, (cfg0.win 2).flush t = true ∧ i ∈ ((cfg0.win 2).blk t).view.set := by
  have hi0 : (i 0).val < 50000 := (i 0).isLt
  have hi1 : (i 1).val < 96 := (i 1).isLt
  obtain ⟨t, ht⟩ := idx_onto0 ⟨(i 0).val / 2000, by omega⟩
  obtain ⟨-, -, -, -, e4, e5⟩ := idx_facts0 t
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; rw [e4, ht]; show (i 0).val / 2000 * 2000 ≤ _ ∧ _ < (i 0).val / 2000 * 2000 + 2000; omega
  | ⟨1, _⟩ => show win0_2.index t (1 : Fin 2) * 96 ≤ (i 1).val ∧ (i 1).val < win0_2.index t (1 : Fin 2) * 96 + 96; rw [e5]; omega

/-- The output array after region 0: the plain product of the two arrays as the region finds them. -/
theorem final0 (c : Dev nD) :
    (dat0 (F := Ideal) V c).arrAt 2 cfg0.N = plainProd (lhs0 V c) (rhs0 V c) :=
  (dat0 (F := Ideal) V c).arrAt_eq_of_cover 2 (plainProd (lhs0 V c) (rhs0 V c)) (fun t _ => flushed0_eq V c t) cover0

end Cert.KernelIdeal.RegionVal

end
-- ==== Proof.Region1.lean ====
/-
  Region 1 (the first layer's combine), read as values at the extended reals.

  Point t of the 25 takes rows 2000·t … 2000·t + 1999 of the aggregated messages, of the transformed features and of the
  column of inverse degrees, and the one row of biases, and writes, entry by entry,
  max ((aggregate + feature · inverse degree of the row) + bias of the column, 0) into the same rows of the output
  array; the blocks tile the output array.
-/
import proofs.«174296_j13417477833490_1_alg».proof.Proof.Gen.KernelIdeal.Frame
import proofs.«174296_j13417477833490_1_alg».proof.Proof.Region0
import Idealize.ShloMosaic.Lib.Pipeline.Value
import Idealize.ShloMosaic.Lib.ValueIdx
import Idealize.ShloMosaic.Lib.ValueLayout

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.RegionVal

open Cert.KernelIdeal Cert.KernelIdeal.Gen

/-- Entry (n, q): the aggregate plus the feature scaled by its row's factor, plus the column's bias. -/
def combineLin {N C : Nat} (agg h : (⟨2, ![N, C]⟩ : Shape).Idx → EReal) (dcol : (⟨2, ![N, 1]⟩ : Shape).Idx → EReal)
    (brow : (⟨2, ![1, C]⟩ : Shape).Idx → EReal) : (⟨2, ![N, C]⟩ : Shape).Idx → EReal :=
  fun j => (agg j + h j * dcol (ix2 (j 0) (0 : Fin 1))) + brow (ix2 (0 : Fin 1) (j 1))

/-- The same, cut off below at the float zero. -/
def combineRelu {N C : Nat} (agg h : (⟨2, ![N, C]⟩ : Shape).Idx → EReal) (dcol : (⟨2, ![N, 1]⟩ : Shape).Idx → EReal)
    (brow : (⟨2, ![1, C]⟩ : Shape).Idx → EReal) : (⟨2, ![N, C]⟩ : Shape).Idx → EReal :=
  fun j => max (combineLin agg h dcol brow j) (FloatOps.ofBits (F := Ideal) .f32 0x00000000#32)

variable (V : (c : Dev nD) → (b : Ref sig .tc) → Buf (Elt Ideal) ((c : Thread nD τ).loc b))

/-- The four arrays as region 1 finds them. -/
abbrev agg1 (c : Dev nD) : S50000x96.Idx → EReal := V c main_v41
abbrev feat1 (c : Dev nD) : S50000x96.Idx → EReal := V c main_v29
abbrev dcol1 (c : Dev nD) : S50000x1.Idx → EReal := V c main_v12
abbrev brow1 (c : Dev nD) : S1x96.Idx → EReal := V c main_v42

/-- An [a × 1] column broadcast to [a × b] reads, at (p, c), the column at row p. -/
theorem broadcastTo_a1_ab_apply1 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's value at (p, q): the first block's entry plus the second's scaled by the column's entry of row p, plus
    the row's entry of column q, cut off below at the float zero. -/
theorem pay1_apply (x0 x1 : Vec Ideal S2000x96 .f32) (x2 : Vec Ideal S2000x1 .f32) (x3 : Vec Ideal S1x96 .f32) (p : Fin 2000) (q : Fin 96) :
    k1_pay1 (F := Ideal) x0 x1 x2 x3 (ix2 p q)
      = max (((x0 (ix2 p q) : EReal) + (x1 (ix2 p q) : EReal) * (x2 (ix2 p (0 : Fin 1)) : EReal)) + (x3 (ix2 (0 : Fin 1) q) : EReal))
          (FloatOps.ofBits (F := Ideal) .f32 0x00000000#32) := by
  unfold k1_pay1
  simp only [shapeCast_self]
  rw [maximumf_apply, addf_apply, addf_apply, mulf_apply, broadcast_apply, broadcastTo_a1_ab_apply1, broadcastTo_1b_ab_apply]

/-- The same at a general index of the block. -/
theorem pay1_read (x0 x1 : Vec Ideal S2000x96 .f32) (x2 : Vec Ideal S2000x1 .f32) (x3 : Vec Ideal S1x96 .f32) (j : S2000x96.Idx) :
    k1_pay1 (F := Ideal) x0 x1 x2 x3 j
      = max (((x0 (ix2 (j 0) (j 1)) : EReal) + (x1 (ix2 (j 0) (j 1)) : EReal) * (x2 (ix2 (j 0) (0 : Fin 1)) : EReal)) + (x3 (ix2 (0 : Fin 1) (j 1)) : EReal))
          (FloatOps.ofBits (F := Ideal) .f32 0x00000000#32) := by
  conv_lhs => rw [eq_ix2 j]
  exact pay1_apply x0 x1 x2 x3 (j 0) (j 1)

/-- The printed index maps over the grid: the two wide inputs, the column and the output move one block of rows per
    point, the row of biases stays. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Window 0's block at point t is rows 2000·t … of the aggregate. -/
theorem iblk1_0_apply (c : Dev nD) (t : Fin cfg1.N) (p : Fin 2000) (q : Fin 96) (k : S50000x96.Idx)
    (hk0 : (k 0).val = t.val * 2000 + p.val) (hk1 : (k 1).val = q.val) :
    (iblk1 V c 0 t : Vec Ideal S2000x96 .f32) (ix2 p q) = agg1 V c k := by
  obtain ⟨e0, e1, -, -, -, -, -, -, -, -⟩ := idx_facts1 t
  unfold iblk1
  rw [View.read_apply]
  show V c main_v41 _ = V c main_v41 _
  congr 1
  funext a
  apply Fin.ext
  match a with
  | ⟨0, _⟩ => show win1_0.index t (0 : Fin 2) * 2000 + 1 * p.val = (k 0).val; rw [e0, hk0]; omega
  | ⟨1, _⟩ => show win1_0.index t (1 : Fin 2) * 96 + 1 * q.val = (k 1).val; rw [e1, hk1]; omega

/-- Window 1's block at point t is rows 2000·t … of the features. -/
theorem iblk1_1_apply (c : Dev nD) (t : Fin cfg1.N) (p : Fin 2000) (q : Fin 96) (k : S50000x96.Idx)
    (hk0 : (k 0).val = t.val * 2000 + p.val) (hk1 : (k 1).val = q.val) :
    (iblk1 V c 1 t : Vec Ideal S2000x96 .f32) (ix2 p q) = feat1 V c k := by
  obtain ⟨-, -, e0, e1, -, -, -, -, -, -⟩ := idx_facts1 t
  unfold iblk1
  rw [View.read_apply]
  show V c main_v29 _ = V c main_v29 _
  congr 1
  funext a
  apply Fin.ext
  match a with
  | ⟨0, _⟩ => show win1_1.index t (0 : Fin 2) * 2000 + 1 * p.val = (k 0).val; rw [e0, hk0]; omega
  | ⟨1, _⟩ => show win1_1.index t (1 : Fin 2) * 96 + 1 * q.val = (k 1).val; rw [e1, hk1]; omega

/-- Window 2's block at point t is rows 2000·t … of the column. -/
theorem iblk1_2_apply (c : Dev nD) (t : Fin cfg1.N) (p : Fin 2000) (k : S50000x1.Idx)
    (hk0 : (k 0).val = t.val * 2000 + p.val) :
    (iblk1 V c 2 t : Vec Ideal S2000x1 .f32) (ix2 p (0 : Fin 1)) = dcol1 V c k := by
  obtain ⟨-, -, -, -, e0, e1, -, -, -, -⟩ := idx_facts1 t
  have hk1 : (k 1).val < 1 := (k 1).isLt
  unfold iblk1
  rw [View.read_apply]
  show V c main_v12 _ = V c main_v12 _
  congr 1
  funext a
  apply Fin.ext
  match a with
  | ⟨0, _⟩ => show win1_2.index t (0 : Fin 2) * 2000 + 1 * p.val = (k 0).val; rw [e0, hk0]; omega
  | ⟨1, _⟩ => show win1_2.index t (1 : Fin 2) * 1 + 1 * 0 = (k 1).val; rw [e1]; omega

/-- Window 3's block at every point is the whole row of biases. -/
theorem iblk1_3_apply (c : Dev nD) (t : Fin cfg1.N) (q : Fin 96) (k : S1x96.Idx)
    (hk1 : (k 1).val = q.val) :
    (iblk1 V c 3 t : Vec Ideal S1x96 .f32) (ix2 (0 : Fin 1) q) = brow1 V c k := by
  obtain ⟨-, -, -, -, -, -, e0, e1, -, -⟩ := idx_facts1 t
  have hk0 : (k 0).val < 1 := (k 0).isLt
  unfold iblk1
  rw [View.read_apply]
  show V c main_v42 _ = V c main_v42 _
  congr 1
  funext a
  apply Fin.ext
  match a with
  | ⟨0, _⟩ => show win1_3.index t (0 : Fin 2) * 1 + 1 * 0 = (k 0).val; rw [e0]; omega
  | ⟨1, _⟩ => show win1_3.index t (1 : Fin 2) * 96 + 1 * q.val = (k 1).val; rw [e1, hk1]; omega

/-- What point t writes back is block t of the combined array. -/
theorem flushed1_eq (c : Dev nD) (t : Fin cfg1.N) :
    (dat1 (F := Ideal) V c).flushed 4 t
      = ((cfg1.win 4).blk t).view.read (Elt Ideal) (combineRelu (agg1 V c) (feat1 V c) (dcol1 V c) (brow1 V c)) := by
  show (cfg1.win 4).cut (grid1.coords t) ((dat1 V c).after 4 t) = _
  rw [after1_4]
  unfold out1_4
  rw [View.canon_unit_zero hz2]
  simp only [View.ld_unit_zero (S := S2000x96) hz2, View.ld_unit_zero (S := S2000x1) hz2, View.ld_unit_zero (S := S1x96) hz2]
  obtain ⟨-, -, -, -, -, -, -, -, e8, e9⟩ := idx_facts1 t
  funext j
  show k1_pay1 (F := Ideal) (iblk1 V c 0 t) (iblk1 V c 1 t) (iblk1 V c 2 t) (iblk1 V c 3 t) j
      = combineRelu (agg1 V c) (feat1 V c) (dcol1 V c) (brow1 V c) (((cfg1.win 4).blk t).view.emb j)
  refine (pay1_read _ _ _ _ j).trans ?_
  unfold combineRelu combineLin
  have h0 : win1_4.index t (0 : Fin 2) * 2000 + 1 * (j 0).val = t.val * 2000 + (j 0).val := by rw [e8]; omega
  have h1 : win1_4.index t (1 : Fin 2) * 96 + 1 * (j 1).val = (j 1).val := by rw [e9]; omega
  congr 1
  congr 1
  · congr 1
    · exact iblk1_0_apply V c t (j 0) (j 1) _ h0 h1
    · congr 1
      · exact iblk1_1_apply V c t (j 0) (j 1) _ h0 h1
      · exact iblk1_2_apply V c t (j 0) _ h0
  · exact iblk1_3_apply V c t (j 1) _ h1

/-- An index of the output array is in point t's block iff each coordinate is in the block's range on its axis. -/
theorem mem_blk1 (t : Fin cfg1.N) (i : S50000x96.Idx) :
    i ∈ ((cfg1.win 4).blk t).view.set ↔ ∀ a : Fin 2, win1_4.index t a * S2000x96.size a ≤ (i a).val ∧ (i a).val < win1_4.index t a * S2000x96.size a + S2000x96.size a := by
  show i ∈ ((View.whole main_v43).slice (win1_4.rect t)).set ↔ _
  rw [View.set_slice_whole, Rect.mem_set_unit]
  exact Iff.rfl

/-- Every block index 0 … 24 is some point's. -/
theorem idx_onto1 : ∀ q0 : Fin 25, ∃ t : Fin cfg1.N, t.val = q0.val :=
  (by decide +kernel : ∀ q0 : Fin 25, ∃ t : Fin grid1.N, t.val = q0.val)

/-- Every index of the output array is in some point's block: row r is in the block of point r / 2000. -/
theorem cover1 (i : S50000x96.Idx) : ∃ t : Fin cfg1.N, (cfg1.win 4).flush t = true ∧ i ∈ ((cfg1.win 4).blk t).view.set := by
  have hi0 : (i 0).val < 50000 := (i 0).isLt
  have hi1 : (i 1).val < 96 := (i 1).isLt
  obtain ⟨t, ht⟩ := idx_onto1 ⟨(i 0).val / 2000, by omega⟩
  obtain ⟨-, -, -, -, -, -, -, -, e8, e9⟩ := idx_facts1 t
  refine ⟨t, flush1_4 t, ?_⟩
  rw [mem_blk1]
  intro a
  match a with
  | ⟨0, _⟩ =>
    show win1_4.index t (0 : Fin 2) * 2000 ≤ (i 0).val ∧ (i 0).val < win1_4.index t (0 : Fin 2) * 2000 + 2000
    rw [e8, ht]
    show (i 0).val / 2000 * 2000 ≤ _ ∧ _ < (i 0).val / 2000 * 2000 + 2000
    omega
  | ⟨1, _⟩ =>
    show win1_4.index t (1 : Fin 2) * 96 ≤ (i 1).val ∧ (i 1).val < win1_4.index t (1 : Fin 2) * 96 + 96
    rw [e9]
    omega

/-- The output array after region 1. -/
theorem final1 (c : Dev nD) :
    (dat1 (F := Ideal) V c).arrAt 4 cfg1.N = combineRelu (agg1 V c) (feat1 V c) (dcol1 V c) (brow1 V c) := by
  exact (dat1 (F := Ideal) V c).arrAt_eq_of_cover 4 (combineRelu (agg1 V c) (feat1 V c) (dcol1 V c) (brow1 V c))
    (fun t _ => flushed1_eq V c t) cover1

end Cert.KernelIdeal.RegionVal

end
-- ==== Proof.RefFacts.lean ====
/-
  Facts about the reference program's own stages, at the extended reals.

  Its three matrix products are plain products (entry (p, q) the sum over κ of left (p, κ) · right (κ, q)). And the
  reference computes the edge weights, the squared inverse degrees, the wrapped source rows and the target rows three
  times over, once per graph convolution, by the same operations of the same edge list: the three copies are one value.
-/
import proofs.«174296_j13417477833490_1_alg».proof.Proof.Gen.ReferenceIdeal.Read
import proofs.«174296_j13417477833490_1_alg».proof.Proof.Region0
import proofs.«174296_j13417477833490_1_alg».proof.Proof.LibPlainDot
import Idealize.ShloMosaic.Lib.ValueIdx

set_option maxRecDepth 16384

noncomputable section

open scoped BigOperators
open Idealize.ShloMosaic Idealize.ShloMosaic.ValueIdx

namespace Cert.RefFacts

open Cert.ReferenceIdeal Cert.ReferenceIdeal.Read
open Cert.KernelIdeal.RegionVal (plainProd plainProd_apply)

/-! ## The three dense layers are plain products -/

theorem dense1 (x0 : (⟨S50000x512, .f32⟩ : BufTy).Contents (Elt Ideal)) (x1 : (⟨S512x96, .f32⟩ : BufTy).Contents (Elt Ideal)) :
    val_main_v11 (F := Ideal) x0 x1 = plainProd (x0 : S50000x512.Idx → EReal) (x1 : S512x96.Idx → EReal) := by
  -- entry (p, q) of the host product is the sum over the contracted coordinate κ of x0 (p, κ) · x1 (κ, q)
  funext j
  obtain ⟨p, q, rfl⟩ : ∃ (p : Fin 50000) (q : Fin 96), j = ix2 p q := ⟨j 0, j 1, eq_ix2 j⟩
  rw [plainProd_apply]
  exact PlainDot.dotGeneral_plain dot_S50000x512_S512x96_S50000x96_1_0_0_1_n_n ⟨rfl, rfl, rfl, rfl, rfl, rfl⟩ none .single x0 x1 p q

/-- Any 50000×96 array times a 96×32 array through the reference's second product record. -/
theorem dense2 (h : FVec Ideal S50000x96 .f32) (w : FVec Ideal S96x32 .f32) :
    Host.dotGeneral (F := Ideal) dot_S50000x96_S96x32_S50000x32_1_0_0_1_n_n none h w
      = plainProd (h : S50000x96.Idx → EReal) (w : S96x32.Idx → EReal) := by
  -- the same reading for the 50000×96 by 96×32 product
  funext j
  obtain ⟨p, q, rfl⟩ : ∃ (p : Fin 50000) (q : Fin 32), j = ix2 p q := ⟨j 0, j 1, eq_ix2 j⟩
  rw [plainProd_apply]
  exact PlainDot.dotGeneral_plain dot_S50000x96_S96x32_S50000x32_1_0_0_1_n_n ⟨rfl, rfl, rfl, rfl, rfl, rfl⟩ none .single h w p q

/-! ## The repeated chains are one value -/

/-- The edge weights (the product of the two gathered inverse square roots), second and third copy. -/
theorem weights2 (x7 : (⟨S2x800000, .i32⟩ : BufTy).Contents (Elt Ideal)) : val_main_v64 (F := Ideal) x7 = val_main_v26 (F := Ideal) x7 := by
  -- both sides gather the inverse square roots of the degrees at the wrapped source rows and at the wrapped target rows of the same edge list and multiply them: the copies unfold to one term
  rfl
theorem weights3 (x7 : (⟨S2x800000, .i32⟩ : BufTy).Contents (Elt Ideal)) : val_main_v101 (F := Ideal) x7 = val_main_v26 (F := Ideal) x7 := by
  -- the third copy unfolds to the same term as the first
  rfl

/-- The squared inverse square roots of the degrees, second and third copy. -/
theorem dsq2 (x7 : (⟨S2x800000, .i32⟩ : BufTy).Contents (Elt Ideal)) : val_main_v78 (F := Ideal) x7 = val_main_v40 (F := Ideal) x7 := by
  -- both sides are the inverse square root of the degrees multiplied by itself
  rfl
theorem dsq3 (x7 : (⟨S2x800000, .i32⟩ : BufTy).Contents (Elt Ideal)) : val_main_v115 (F := Ideal) x7 = val_main_v40 (F := Ideal) x7 := by
  -- the third copy likewise
  rfl

/-- The column of wrapped source rows, second and third copy. -/
theorem srccol2 (x7 : (⟨S2x800000, .i32⟩ : BufTy).Contents (Elt Ideal)) : val_main_v70 (F := Ideal) x7 = val_main_v32 (F := Ideal) x7 := by
  -- both sides wrap the source rows (add 50000 where the row number is negative) and lay them out as a column
  rfl
theorem srccol3 (x7 : (⟨S2x800000, .i32⟩ : BufTy).Contents (Elt Ideal)) : val_main_v107 (F := Ideal) x7 = val_main_v32 (F := Ideal) x7 := by
  -- the third copy likewise
  rfl

/-- The column of target rows, second and third copy. -/
theorem dstcol2 (x7 : (⟨S2x800000, .i32⟩ : BufTy).Contents (Elt Ideal)) : val_main_v76 (F := Ideal) x7 = val_main_v38 (F := Ideal) x7 := by
  -- both sides lay the target rows out as a column
  rfl
theorem dstcol3 (x7 : (⟨S2x800000, .i32⟩ : BufTy).Contents (Elt Ideal)) : val_main_v113 (F := Ideal) x7 = val_main_v38 (F := Ideal) x7 := by
  -- the third copy likewise
  rfl

end Cert.RefFacts

end
-- ==== Proof.RefCombine.lean ====
/-
  The reference program's three combine stages, entry by entry.

  Each graph convolution of the reference ends with: the aggregated messages plus the transformed features scaled by
  the squared inverse square root of the row's degree, plus the bias of the column; the first is then cut off below at
  zero. Read at an entry, these stages are the combine functions the kernel's combine regions compute, applied to the
  reference's own earlier stages (the degree column and the bias row being the reference's broadcasts read at (n, 0)
  and (0, q)).
-/
import proofs.«174296_j13417477833490_1_alg».proof.Proof.Gen.ReferenceIdeal.Read
import proofs.«174296_j13417477833490_1_alg».proof.Proof.Region1
import Idealize.ShloMosaic.Lib.ValueIdx

set_option maxRecDepth 16384

noncomputable section

open scoped BigOperators
open Idealize.ShloMosaic Idealize.ShloMosaic.ValueIdx

namespace Cert.RefFacts

open Cert.ReferenceIdeal Cert.ReferenceIdeal.Read
open Cert.KernelIdeal.RegionVal (combineLin combineRelu)

/-- The first layer's output, after the cut-off at zero. -/
theorem relu_stage (x0 : (⟨S50000x512, .f32⟩ : BufTy).Contents (Elt Ideal)) (x1 : (⟨S512x96, .f32⟩ : BufTy).Contents (Elt Ideal)) (x2 : (⟨S96, .f32⟩ : BufTy).Contents (Elt Ideal)) (x7 : (⟨S2x800000, .i32⟩ : BufTy).Contents (Elt Ideal)) :
    val_main_v48 (F := Ideal) x0 x1 x2 x7
      = combineRelu (N := 50000) (C := 96) (val_main_v39 (F := Ideal) x0 x1 x7) (val_main_v11 (F := Ideal) x0 x1)
          (val_main_v41 (F := Ideal) x7) (val_main_v45 (F := Ideal) x2) := by
  funext j
  obtain ⟨n, q, rfl⟩ : ∃ (n : Fin 50000) (q : Fin 96), j = ix2 n q := ⟨j 0, j 1, eq_ix2 j⟩
  -- the stage at (n, q): the maximum of (aggregate + feature * degree column) + bias row and the zero constant
  rw [val_main_v48_apply, val_main_v47_apply, val_main_v44_apply, val_main_v43_apply, val_main_v42_apply,
    val_main_v46_apply, val_main_call0_v0_apply, val_main_call0_cst_apply]
  -- the two broadcasts read the degree column at (n, 0) and the bias row at (0, q)
  have e1 : idx_main_v42 (ix2 n q) = ix2 n (0 : Fin 1) :=
    funext fun a => Fin.ext (by match a with | ⟨0, _⟩ => rfl | ⟨1, _⟩ => rfl)
  have e2 : idx_main_v46 (ix2 n q) = ix2 (0 : Fin 1) q :=
    funext fun a => Fin.ext (by match a with | ⟨0, _⟩ => rfl | ⟨1, _⟩ => rfl)
  rw [e1, e2]
  unfold combineRelu combineLin
  rfl

/-- The first head's output. -/
theorem lin_stage_mu (x0 : (⟨S50000x512, .f32⟩ : BufTy).Contents (Elt Ideal)) (x1 : (⟨S512x96, .f32⟩ : BufTy).Contents (Elt Ideal)) (x2 : (⟨S96, .f32⟩ : BufTy).Contents (Elt Ideal)) (x3 : (⟨S96x32, .f32⟩ : BufTy).Contents (Elt Ideal)) (x4 : (⟨S32, .f32⟩ : BufTy).Contents (Elt Ideal)) (x7 : (⟨S2x800000, .i32⟩ : BufTy).Contents (Elt Ideal)) :
    val_main_v85 (F := Ideal) x0 x1 x2 x3 x4 x7
      = combineLin (N := 50000) (C := 32) (val_main_v77 (F := Ideal) x0 x1 x2 x3 x7) (val_main_v49 (F := Ideal) x0 x1 x2 x3 x7)
          (val_main_v79 (F := Ideal) x7) (val_main_v83 (F := Ideal) x4) := by
  funext j
  obtain ⟨n, q, rfl⟩ : ∃ (n : Fin 50000) (q : Fin 32), j = ix2 n q := ⟨j 0, j 1, eq_ix2 j⟩
  -- the stage at (n, q): (aggregate + feature * degree column) + bias row
  rw [val_main_v85_apply, val_main_v82_apply, val_main_v81_apply, val_main_v80_apply, val_main_v84_apply]
  -- the two broadcasts read the degree column at (n, 0) and the bias row at (0, q)
  have e1 : idx_main_v80 (ix2 n q) = ix2 n (0 : Fin 1) :=
    funext fun a => Fin.ext (by match a with | ⟨0, _⟩ => rfl | ⟨1, _⟩ => rfl)
  have e2 : idx_main_v84 (ix2 n q) = ix2 (0 : Fin 1) q :=
    funext fun a => Fin.ext (by match a with | ⟨0, _⟩ => rfl | ⟨1, _⟩ => rfl)
  rw [e1, e2]
  unfold combineLin
  rfl

/-- The second head's output. -/
theorem lin_stage_ls (x0 : (⟨S50000x512, .f32⟩ : BufTy).Contents (Elt Ideal)) (x1 : (⟨S512x96, .f32⟩ : BufTy).Contents (Elt Ideal)) (x2 : (⟨S96, .f32⟩ : BufTy).Contents (Elt Ideal)) (x5 : (⟨S96x32, .f32⟩ : BufTy).Contents (Elt Ideal)) (x6 : (⟨S32, .f32⟩ : BufTy).Contents (Elt Ideal)) (x7 : (⟨S2x800000, .i32⟩ : BufTy).Contents (Elt Ideal)) :
    val_main_v122 (F := Ideal) x0 x1 x2 x5 x6 x7
      = combineLin (N := 50000) (C := 32) (val_main_v114 (F := Ideal) x0 x1 x2 x5 x7) (val_main_v86 (F := Ideal) x0 x1 x2 x5 x7)
          (val_main_v116 (F := Ideal) x7) (val_main_v120 (F := Ideal) x6) := by
  funext j
  obtain ⟨n, q, rfl⟩ : ∃ (n : Fin 50000) (q : Fin 32), j = ix2 n q := ⟨j 0, j 1, eq_ix2 j⟩
  -- the stage at (n, q): (aggregate + feature * degree column) + bias row
  rw [val_main_v122_apply, val_main_v119_apply, val_main_v118_apply, val_main_v117_apply, val_main_v121_apply]
  -- the two broadcasts read the degree column at (n, 0) and the bias row at (0, q)
  have e1 : idx_main_v117 (ix2 n q) = ix2 n (0 : Fin 1) :=
    funext fun a => Fin.ext (by match a with | ⟨0, _⟩ => rfl | ⟨1, _⟩ => rfl)
  have e2 : idx_main_v121 (ix2 n q) = ix2 (0 : Fin 1) q :=
    funext fun a => Fin.ext (by match a with | ⟨0, _⟩ => rfl | ⟨1, _⟩ => rfl)
  rw [e1, e2]
  unfold combineLin
  rfl

end Cert.RefFacts

end
-- ==== Proof.LibColRow.lean ====
/-
  A vector kept as a column, or as a row.

  An n-vector reshaped to an n×1 array is the vector broadcast along a new second axis, and reshaped to a 1×n array it is
  the vector broadcast along a new first axis: entry (p, 0), respectively (0, p), is entry p either way.
-/
import Idealize.ShloMosaic.Lib.Pipeline.Value
import Idealize.ShloMosaic.Lib.ValueIdx
import Idealize.ShloMosaic.Lib.ValueLayout

noncomputable section

namespace Idealize.ShloMosaic.RowOps
open Idealize.ShloMosaic Idealize.ShloMosaic.ValueIdx

/-- An n-vector reshaped to an n×1 column reads entry p at (p, u). -/
theorem shapeCast_a_a1_apply {α : Type} {n : Nat} (v : (⟨1, ![n]⟩ : Shape).Idx → α)
    (h : (⟨1, ![n]⟩ : Shape).ShapeCasts ⟨2, ![n, 1]⟩) (p : Fin n) (u : Fin 1) :
    shapeCast (⟨2, ![n, 1]⟩ : Shape) v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- An n-vector broadcast along a new second axis reads entry p at (p, u). -/
theorem bcast_a_a1_apply {α : Type} {n : Nat} (v : (⟨1, ![n]⟩ : Shape).Idx → α)
    (hb : (⟨1, ![n]⟩ : Shape).BroadcastsInDim ⟨2, ![n, 1]⟩ ![0]) (p : Fin n) (u : Fin 1) :
    broadcastInDim (⟨2, ![n, 1]⟩ : Shape) ![0] hb v (ix2 p u) = v (ix1 p) :=
  broadcastInDim_apply ![0] hb v (ix2 p u) (ix1 p) fun a => by
    match a with
    | ⟨0, _⟩ =>
      show p.val = if n = 1 then 0 else p.val
      split
      · have := p.isLt; omega
      · rfl

/-- The reshape to a column and the broadcast along a new second axis are one array. -/
theorem reshape_col_eq_bcast {α : Type} {n : Nat} (v : (⟨1, ![n]⟩ : Shape).Idx → α)
    (h : (⟨1, ![n]⟩ : Shape).ShapeCasts ⟨2, ![n, 1]⟩) (hb : (⟨1, ![n]⟩ : Shape).BroadcastsInDim ⟨2, ![n, 1]⟩ ![0]) :
    shapeCast (⟨2, ![n, 1]⟩ : Shape) v h = broadcastInDim (⟨2, ![n, 1]⟩ : Shape) ![0] hb v := by
  funext j
  obtain ⟨p, u, rfl⟩ : ∃ (p : Fin n) (u : Fin 1), j = ix2 p u := ⟨j 0, j 1, eq_ix2 j⟩
  rw [shapeCast_a_a1_apply, bcast_a_a1_apply]

/-- An n-vector broadcast along a new first axis reads entry q at (u, q). -/
theorem bcast_a_1a_apply {α : Type} {n : Nat} (v : (⟨1, ![n]⟩ : Shape).Idx → α)
    (hb : (⟨1, ![n]⟩ : Shape).BroadcastsInDim ⟨2, ![1, n]⟩ ![1]) (u : Fin 1) (q : Fin n) :
    broadcastInDim (⟨2, ![1, n]⟩ : Shape) ![1] hb v (ix2 u q) = v (ix1 q) :=
  broadcastInDim_apply ![1] hb v (ix2 u q) (ix1 q) fun a => by
    match a with
    | ⟨0, _⟩ =>
      show q.val = if n = 1 then 0 else q.val
      split
      · have := q.isLt; omega
      · rfl

/-- The reshape to a row and the broadcast along a new first axis are one array. -/
theorem reshape_row_eq_bcast {α : Type} {n : Nat} (v : (⟨1, ![n]⟩ : Shape).Idx → α)
    (h : (⟨1, ![n]⟩ : Shape).ShapeCasts ⟨2, ![1, n]⟩) (hb : (⟨1, ![n]⟩ : Shape).BroadcastsInDim ⟨2, ![1, n]⟩ ![1]) :
    shapeCast (⟨2, ![1, n]⟩ : Shape) v h = broadcastInDim (⟨2, ![1, n]⟩ : Shape) ![1] hb v := by
  funext j
  obtain ⟨u, q, rfl⟩ : ∃ (u : Fin 1) (q : Fin n), j = ix2 u q := ⟨j 0, j 1, eq_ix2 j⟩
  rw [shapeCast_a_1a_apply, bcast_a_1a_apply]

end Idealize.ShloMosaic.RowOps

end
-- ==== Proof.StagesA.lean ====
/-
  The kernel program's boundary contents, first layer, read back as the reference's stages.

  The program's run passes nine boundaries; what every buffer holds at each is a fold from the launch memory (host
  operations applied in order, a region's output array replaced by what its grid leaves). Here the fold is read back, at
  the extended reals, for the buffers the first layer uses, and each is found to be the value the reference program
  computes at the same place: the two rows of the edge list, the squared inverse square root of the degrees as a column
  and the edge weights as a column (host operations both programs share, a reshape where the reference broadcasts along
  a new unit axis: the same column); the first dense layer (a plain matrix product in both); the weighted sum of the
  neighbours' rows (the same gather, product and scatter-add of equal operands); and the combine with the bias and the
  cut-off at zero (the same arithmetic entry by entry). A buffer that a stretch of host operations does not write, or
  that a region does not stage, is carried across unchanged; an input array of a region is left as the region found it.
-/
import proofs.«174296_j13417477833490_1_alg».proof.Proof.Gen.KernelIdeal.Frame
import proofs.«174296_j13417477833490_1_alg».proof.Proof.Gen.ReferenceIdeal.Read
import proofs.«174296_j13417477833490_1_alg».proof.Proof.Region0
import proofs.«174296_j13417477833490_1_alg».proof.Proof.Region1
import proofs.«174296_j13417477833490_1_alg».proof.Proof.RefFacts
import proofs.«174296_j13417477833490_1_alg».proof.Proof.RefCombine
import proofs.«174296_j13417477833490_1_alg».proof.Proof.LibColRow
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open scoped BigOperators
open Idealize.ShloMosaic Idealize.ShloMosaic.TcCoe Idealize.SL.Sem Idealize.ShloMosaic.ValueIdx Idealize.ShloMosaic.StableHlo

namespace Cert.Stages

open Cert.KernelIdeal Cert.KernelIdeal.Gen Cert.KernelIdeal.RegionVal
open Cert.ReferenceIdeal.Read (val_main_v1 val_main_v3 val_main_v11 val_main_v26 val_main_v34 val_main_v39 val_main_v40
  val_main_v41 val_main_v45 val_main_v48)
open Idealize.ShloMosaic.RowOps (reshape_col_eq_bcast reshape_row_eq_bcast)

variable (m : (ℓ : Loc nD τ sig) → Buf (Elt Ideal) ℓ) (ρ : Dev nD → PrngReg)

/-! ## The arguments, as the launch memory holds them -/

abbrev a0 (c : Dev nD) : (⟨S50000x512, .f32⟩ : BufTy).Contents (Elt Ideal) := m ((c : Thread nD τ).loc main_arg0)
abbrev a1 (c : Dev nD) : (⟨S512x96, .f32⟩ : BufTy).Contents (Elt Ideal) := m ((c : Thread nD τ).loc main_arg1)
abbrev a2 (c : Dev nD) : (⟨S96, .f32⟩ : BufTy).Contents (Elt Ideal) := m ((c : Thread nD τ).loc main_arg2)
abbrev a3 (c : Dev nD) : (⟨S96x32, .f32⟩ : BufTy).Contents (Elt Ideal) := m ((c : Thread nD τ).loc main_arg3)
abbrev a4 (c : Dev nD) : (⟨S32, .f32⟩ : BufTy).Contents (Elt Ideal) := m ((c : Thread nD τ).loc main_arg4)
abbrev a5 (c : Dev nD) : (⟨S96x32, .f32⟩ : BufTy).Contents (Elt Ideal) := m ((c : Thread nD τ).loc main_arg5)
abbrev a6 (c : Dev nD) : (⟨S32, .f32⟩ : BufTy).Contents (Elt Ideal) := m ((c : Thread nD τ).loc main_arg6)
abbrev a7 (c : Dev nD) : (⟨S2x800000, .i32⟩ : BufTy).Contents (Elt Ideal) := m ((c : Thread nD τ).loc main_arg7)

/-! ## Boundary 1: after the first stretch of host operations -/

/-- No host operation writes an argument. -/
theorem W1_arg0 (c : Dev nD) : W1 m ρ c (Proc.devRef .tc main_arg0) = a0 m c := by
  show StableHlo.after hostOps0 (W0 m ρ c) (Proc.devRef .tc main_arg0) = _
  dsimp only [hostOps0]
  after_results_simp
theorem W1_arg1 (c : Dev nD) : W1 m ρ c (Proc.devRef .tc main_arg1) = a1 m c := by
  show StableHlo.after hostOps0 (W0 m ρ c) (Proc.devRef .tc main_arg1) = _
  dsimp only [hostOps0]
  after_results_simp
theorem W1_arg2 (c : Dev nD) : W1 m ρ c (Proc.devRef .tc main_arg2) = a2 m c := by
  show StableHlo.after hostOps0 (W0 m ρ c) (Proc.devRef .tc main_arg2) = _
  dsimp only [hostOps0]
  after_results_simp
theorem W1_arg3 (c : Dev nD) : W1 m ρ c (Proc.devRef .tc main_arg3) = a3 m c := by
  show StableHlo.after hostOps0 (W0 m ρ c) (Proc.devRef .tc main_arg3) = _
  dsimp only [hostOps0]
  after_results_simp
theorem W1_arg4 (c : Dev nD) : W1 m ρ c (Proc.devRef .tc main_arg4) = a4 m c := by
  show StableHlo.after hostOps0 (W0 m ρ c) (Proc.devRef .tc main_arg4) = _
  dsimp only [hostOps0]
  after_results_simp
theorem W1_arg5 (c : Dev nD) : W1 m ρ c (Proc.devRef .tc main_arg5) = a5 m c := by
  show StableHlo.after hostOps0 (W0 m ρ c) (Proc.devRef .tc main_arg5) = _
  dsimp only [hostOps0]
  after_results_simp
theorem W1_arg6 (c : Dev nD) : W1 m ρ c (Proc.devRef .tc main_arg6) = a6 m c := by
  show StableHlo.after hostOps0 (W0 m ρ c) (Proc.devRef .tc main_arg6) = _
  dsimp only [hostOps0]
  after_results_simp

/-- The source row of the edge list. -/
theorem W1_src (c : Dev nD) : W1 m ρ c (Proc.devRef .tc main_v1) = val_main_v1 (F := Ideal) (a7 m c) := by
  show StableHlo.after hostOps0 (W0 m ρ c) (Proc.devRef .tc main_v1) = _
  dsimp only [hostOps0]
  after_results_simp
  rfl

/-- The target row of the edge list. -/
theorem W1_dst (c : Dev nD) : W1 m ρ c (Proc.devRef .tc main_v3) = val_main_v3 (F := Ideal) (a7 m c) := by
  show StableHlo.after hostOps0 (W0 m ρ c) (Proc.devRef .tc main_v3) = _
  dsimp only [hostOps0]
  after_results_simp
  rfl

/-- The squared inverse square roots of the degrees, as a column: the kernel's reshape is the reference's broadcast. -/
theorem W1_dcol (c : Dev nD) : W1 m ρ c (Proc.devRef .tc main_v12) = val_main_v41 (F := Ideal) (a7 m c) := by
  show StableHlo.after hostOps0 (W0 m ρ c) (Proc.devRef .tc main_v12) = _
  dsimp only [hostOps0]
  after_results_simp
  show shapeCast S50000x1 (val_main_v40 (F := Ideal) (a7 m c)) shapeCasts_S50000_S50000x1 = _
  unfold val_main_v41
  exact reshape_col_eq_bcast _ _ _

/-- The edge weights (the two gathered inverse square roots multiplied), as a column. -/
theorem W1_ncol (c : Dev nD) : W1 m ρ c (Proc.devRef .tc main_v28) = val_main_v34 (F := Ideal) (a7 m c) := by
  show StableHlo.after hostOps0 (W0 m ρ c) (Proc.devRef .tc main_v28) = _
  dsimp only [hostOps0]
  after_results_simp
  show shapeCast S800000x1 (val_main_v26 (F := Ideal) (a7 m c)) shapeCasts_S800000_S800000x1 = _
  unfold val_main_v34
  exact reshape_col_eq_bcast _ _ _

/-! ## Boundary 2: after region 0 (the first dense layer) -/

/-- The transformed features: a plain matrix product in both programs. -/
theorem W2_h (c : Dev nD) : W2 m ρ c (Proc.devRef .tc main_v29) = val_main_v11 (F := Ideal) (a0 m c) (a1 m c) := by
  refine (W2_arr m ρ c 2).trans ((final0 (V1 m ρ) c).trans ?_)
  show plainProd (W1 m ρ c (Proc.devRef .tc main_arg0)) (W1 m ρ c (Proc.devRef .tc main_arg1)) = _
  rw [W1_arg0, W1_arg1]
  exact (Cert.RefFacts.dense1 _ _).symm

theorem W2_src (c : Dev nD) : W2 m ρ c (Proc.devRef .tc main_v1) = val_main_v1 (F := Ideal) (a7 m c) :=
  (W2_of_ne m ρ c main_v1 (by decide)).trans (W1_src m ρ c)
theorem W2_dst (c : Dev nD) : W2 m ρ c (Proc.devRef .tc main_v3) = val_main_v3 (F := Ideal) (a7 m c) :=
  (W2_of_ne m ρ c main_v3 (by decide)).trans (W1_dst m ρ c)
theorem W2_dcol (c : Dev nD) : W2 m ρ c (Proc.devRef .tc main_v12) = val_main_v41 (F := Ideal) (a7 m c) :=
  (W2_of_ne m ρ c main_v12 (by decide)).trans (W1_dcol m ρ c)
theorem W2_ncol (c : Dev nD) : W2 m ρ c (Proc.devRef .tc main_v28) = val_main_v34 (F := Ideal) (a7 m c) :=
  (W2_of_ne m ρ c main_v28 (by decide)).trans (W1_ncol m ρ c)
theorem W2_arg2 (c : Dev nD) : W2 m ρ c (Proc.devRef .tc main_arg2) = a2 m c :=
  (W2_of_ne m ρ c main_arg2 (by decide)).trans (W1_arg2 m ρ c)
theorem W2_arg3 (c : Dev nD) : W2 m ρ c (Proc.devRef .tc main_arg3) = a3 m c :=
  (W2_of_ne m ρ c main_arg3 (by decide)).trans (W1_arg3 m ρ c)
theorem W2_arg4 (c : Dev nD) : W2 m ρ c (Proc.devRef .tc main_arg4) = a4 m c :=
  (W2_of_ne m ρ c main_arg4 (by decide)).trans (W1_arg4 m ρ c)
theorem W2_arg5 (c : Dev nD) : W2 m ρ c (Proc.devRef .tc main_arg5) = a5 m c :=
  (W2_of_ne m ρ c main_arg5 (by decide)).trans (W1_arg5 m ρ c)
theorem W2_arg6 (c : Dev nD) : W2 m ρ c (Proc.devRef .tc main_arg6) = a6 m c :=
  (W2_of_ne m ρ c main_arg6 (by decide)).trans (W1_arg6 m ρ c)

/-! ## Boundary 3: after the second stretch of host operations -/

/-- The weighted sum of the neighbours' transformed rows: the same gather, product with the edge weights and
    scatter-add, of equal operands. -/
theorem W3_agg (c : Dev nD) :
    W3 m ρ c (Proc.devRef .tc main_v41) = val_main_v39 (F := Ideal) (a0 m c) (a1 m c) (a7 m c) := by
  show StableHlo.after hostOps1 (W2 m ρ c) (Proc.devRef .tc main_v41) = _
  dsimp only [hostOps1]
  after_results_simp
  rw [W2_dst, W2_h, W2_src, W2_ncol]
  rfl

/-- The first bias as a row: the kernel's reshape is the reference's broadcast. -/
theorem W3_brow (c : Dev nD) : W3 m ρ c (Proc.devRef .tc main_v42) = val_main_v45 (F := Ideal) (a2 m c) := by
  show StableHlo.after hostOps1 (W2 m ρ c) (Proc.devRef .tc main_v42) = _
  dsimp only [hostOps1]
  after_results_simp
  rw [W2_arg2]
  show shapeCast S1x96 (a2 m c) shapeCasts_S96_S1x96 = _
  unfold val_main_v45
  exact reshape_row_eq_bcast _ _ _

theorem W3_h (c : Dev nD) : W3 m ρ c (Proc.devRef .tc main_v29) = val_main_v11 (F := Ideal) (a0 m c) (a1 m c) := by
  show StableHlo.after hostOps1 (W2 m ρ c) (Proc.devRef .tc main_v29) = _
  dsimp only [hostOps1]
  after_results_simp
  exact W2_h m ρ c
theorem W3_src (c : Dev nD) : W3 m ρ c (Proc.devRef .tc main_v1) = val_main_v1 (F := Ideal) (a7 m c) := by
  show StableHlo.after hostOps1 (W2 m ρ c) (Proc.devRef .tc main_v1) = _
  dsimp only [hostOps1]
  after_results_simp
  exact W2_src m ρ c
theorem W3_dst (c : Dev nD) : W3 m ρ c (Proc.devRef .tc main_v3) = val_main_v3 (F := Ideal) (a7 m c) := by
  show StableHlo.after hostOps1 (W2 m ρ c) (Proc.devRef .tc main_v3) = _
  dsimp only [hostOps1]
  after_results_simp
  exact W2_dst m ρ c
theorem W3_dcol (c : Dev nD) : W3 m ρ c (Proc.devRef .tc main_v12) = val_main_v41 (F := Ideal) (a7 m c) := by
  show StableHlo.after hostOps1 (W2 m ρ c) (Proc.devRef .tc main_v12) = _
  dsimp only [hostOps1]
  after_results_simp
  exact W2_dcol m ρ c
theorem W3_ncol (c : Dev nD) : W3 m ρ c (Proc.devRef .tc main_v28) = val_main_v34 (F := Ideal) (a7 m c) := by
  show StableHlo.after hostOps1 (W2 m ρ c) (Proc.devRef .tc main_v28) = _
  dsimp only [hostOps1]
  after_results_simp
  exact W2_ncol m ρ c
theorem W3_arg3 (c : Dev nD) : W3 m ρ c (Proc.devRef .tc main_arg3) = a3 m c := by
  show StableHlo.after hostOps1 (W2 m ρ c) (Proc.devRef .tc main_arg3) = _
  dsimp only [hostOps1]
  after_results_simp
  exact W2_arg3 m ρ c
theorem W3_arg4 (c : Dev nD) : W3 m ρ c (Proc.devRef .tc main_arg4) = a4 m c := by
  show StableHlo.after hostOps1 (W2 m ρ c) (Proc.devRef .tc main_arg4) = _
  dsimp only [hostOps1]
  after_results_simp
  exact W2_arg4 m ρ c
theorem W3_arg5 (c : Dev nD) : W3 m ρ c (Proc.devRef .tc main_arg5) = a5 m c := by
  show StableHlo.after hostOps1 (W2 m ρ c) (Proc.devRef .tc main_arg5) = _
  dsimp only [hostOps1]
  after_results_simp
  exact W2_arg5 m ρ c
theorem W3_arg6 (c : Dev nD) : W3 m ρ c (Proc.devRef .tc main_arg6) = a6 m c := by
  show StableHlo.after hostOps1 (W2 m ρ c) (Proc.devRef .tc main_arg6) = _
  dsimp only [hostOps1]
  after_results_simp
  exact W2_arg6 m ρ c

/-! ## Boundary 4: after region 1 (the first combine) -/

/-- The hidden features: the combine of equal operands, which is the reference's stage entry by entry. -/
theorem W4_hidden (c : Dev nD) :
    W4 m ρ c (Proc.devRef .tc main_v43) = val_main_v48 (F := Ideal) (a0 m c) (a1 m c) (a2 m c) (a7 m c) := by
  refine (W4_arr m ρ c 4).trans ((final1 (V3 m ρ) c).trans ?_)
  show combineRelu (W3 m ρ c (Proc.devRef .tc main_v41)) (W3 m ρ c (Proc.devRef .tc main_v29))
    (W3 m ρ c (Proc.devRef .tc main_v12)) (W3 m ρ c (Proc.devRef .tc main_v42)) = _
  rw [W3_agg, W3_h, W3_dcol, W3_brow]
  exact (Cert.RefFacts.relu_stage _ _ _ _).symm

/-- The degree column is one of region 1's input arrays: the region leaves it as it found it. -/
theorem W4_dcol (c : Dev nD) : W4 m ρ c (Proc.devRef .tc main_v12) = val_main_v41 (F := Ideal) (a7 m c) :=
  (W4_arr m ρ c 2).trans (((dat1 (V3 m ρ) c).arrAt_in 2 rfl _).trans ((A_eq1 (V3 m ρ) c 2).trans (W3_dcol m ρ c)))

theorem W4_src (c : Dev nD) : W4 m ρ c (Proc.devRef .tc main_v1) = val_main_v1 (F := Ideal) (a7 m c) :=
  (W4_of_ne m ρ c main_v1 (by decide)).trans (W3_src m ρ c)
theorem W4_dst (c : Dev nD) : W4 m ρ c (Proc.devRef .tc main_v3) = val_main_v3 (F := Ideal) (a7 m c) :=
  (W4_of_ne m ρ c main_v3 (by decide)).trans (W3_dst m ρ c)
theorem W4_ncol (c : Dev nD) : W4 m ρ c (Proc.devRef .tc main_v28) = val_main_v34 (F := Ideal) (a7 m c) :=
  (W4_of_ne m ρ c main_v28 (by decide)).trans (W3_ncol m ρ c)
theorem W4_arg3 (c : Dev nD) : W4 m ρ c (Proc.devRef .tc main_arg3) = a3 m c :=
  (W4_of_ne m ρ c main_arg3 (by decide)).trans (W3_arg3 m ρ c)
theorem W4_arg4 (c : Dev nD) : W4 m ρ c (Proc.devRef .tc main_arg4) = a4 m c :=
  (W4_of_ne m ρ c main_arg4 (by decide)).trans (W3_arg4 m ρ c)
theorem W4_arg5 (c : Dev nD) : W4 m ρ c (Proc.devRef .tc main_arg5) = a5 m c :=
  (W4_of_ne m ρ c main_arg5 (by decide)).trans (W3_arg5 m ρ c)
theorem W4_arg6 (c : Dev nD) : W4 m ρ c (Proc.devRef .tc main_arg6) = a6 m c :=
  (W4_of_ne m ρ c main_arg6 (by decide)).trans (W3_arg6 m ρ c)

end Cert.Stages

end
-- ==== Proof.Region2.lean ====
/-
  Region 2 (the two heads' fused matrix product), read as values at the extended reals.

  Point t of the 25 multiplies rows 2000·t … 2000·t + 1999 of the 50000×96 left array by the whole 96×64 right array and
  writes the 2000×64 block of rows 2000·t … of the output array; the blocks tile the output, which ends holding the plain
  matrix product of the two arrays as the region finds them.
-/
import proofs.«174296_j13417477833490_1_alg».proof.Proof.Gen.KernelIdeal.Frame
import proofs.«174296_j13417477833490_1_alg».proof.Proof.Region0
import Idealize.ShloMosaic.Lib.Pipeline.Value
import Idealize.ShloMosaic.Lib.ValueIdx
import Idealize.ShloMosaic.Lib.ValueLayout

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.RegionVal

open Cert.KernelIdeal Cert.KernelIdeal.Gen

variable (V : (c : Dev nD) → (b : Ref sig .tc) → Buf (Elt Ideal) ((c : Thread nD τ).loc b))

/-- The left array as region 2 finds it. -/
abbrev lhs2 (c : Dev nD) : S50000x96.Idx → EReal := V c main_v43
/-- The right array as region 2 finds it. -/
abbrev rhs2 (c : Dev nD) : S96x64.Idx → EReal := V c main_v44

/-- The body's value at (p, q). Each loaded block is first cast to the shape it already has (the identity) and then
    changed in float format (the identity at the extended reals); the product accumulates from zero, so the entry is
    the sum over the contracted coordinate κ of x (p, κ) · w (κ, q). -/
theorem pay2_apply (x : Vec Ideal S2000x96 .f32) (w : Vec Ideal S96x64 .f32) (p : Fin 2000) (q : Fin 64) :
    k2_pay1 (F := Ideal) x w (ix2 p q) = ∑ κ : Fin 96, (x (ix2 p κ) : EReal) * (w (ix2 κ q) : EReal) := by
  unfold k2_pay1
  simp only [shapeCast_self]
  exact PlainDot.matmul_zero_plain dot_S2000x96_S96x64_S2000x64_1_0_0_1_n_n ⟨rfl, rfl, rfl, rfl, rfl, rfl⟩ none _ _ p q

/-- The body's value at any index j of the 2000×64 block, through j's two coordinates. -/
theorem pay2_read (x : Vec Ideal S2000x96 .f32) (w : Vec Ideal S96x64 .f32) (j : S2000x64.Idx) :
    k2_pay1 (F := Ideal) x w j = ∑ κ : Fin 96, (x (ix2 (j 0) κ) : EReal) * (w (ix2 κ (j 1)) : EReal) := by
  conv_lhs => rw [eq_ix2 j]
  exact pay2_apply x w (j 0) (j 1)

/-- The printed index maps at every point of the grid: windows 0 (left) and 2 (output) sit on block row t, column
    block 0; window 1 (right) sits on block (0, 0) throughout. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, κ) of the left window's block at point t is the left array's entry (2000·t + p, κ). -/
theorem iblk2_0_apply (c : Dev nD) (t : Fin cfg2.N) (p : Fin 2000) (κ : Fin 96) (k : S50000x96.Idx)
    (hk0 : (k 0).val = t.val * 2000 + p.val) (hk1 : (k 1).val = κ.val) :
    (iblk2 V c 0 t : Vec Ideal S2000x96 .f32) (ix2 p κ) = lhs2 V c k := by
  obtain ⟨e0, e1, -, -, -, -⟩ := idx_facts2 t
  unfold iblk2
  rw [View.read_apply]
  show V c main_v43 _ = V c main_v43 _
  congr 1
  funext a
  apply Fin.ext
  match a with
  | ⟨0, _⟩ => show win2_0.index t (0 : Fin 2) * 2000 + 1 * p.val = (k 0).val; rw [e0, hk0]; omega
  | ⟨1, _⟩ => show win2_0.index t (1 : Fin 2) * 96 + 1 * κ.val = (k 1).val; rw [e1, hk1]; omega

/-- Entry (κ, q) of the right window's block, at whatever point, is the right array's entry (κ, q). -/
theorem iblk2_1_apply (c : Dev nD) (t : Fin cfg2.N) (κ : Fin 96) (q : Fin 64) :
    (iblk2 V c 1 t : Vec Ideal S96x64 .f32) (ix2 κ q) = rhs2 V c (ix2 κ q) := by
  obtain ⟨-, -, e2, e3, -, -⟩ := idx_facts2 t
  unfold iblk2
  rw [View.read_apply]
  show V c main_v44 _ = V c main_v44 _
  congr 1
  funext a
  apply Fin.ext
  match a with
  | ⟨0, _⟩ => show win2_1.index t (0 : Fin 2) * 96 + 1 * κ.val = κ.val; rw [e2]; omega
  | ⟨1, _⟩ => show win2_1.index t (1 : Fin 2) * 64 + 1 * q.val = q.val; rw [e3]; omega

/-- Point t writes back rows 2000·t … 2000·t + 1999 of the plain product of the two arrays. -/
theorem flushed2_eq (c : Dev nD) (t : Fin cfg2.N) :
    (dat2 (F := Ideal) V c).flushed 2 t = ((cfg2.win 2).blk t).view.read (Elt Ideal) (plainProd (lhs2 V c) (rhs2 V c)) := by
  show (cfg2.win 2).cut (grid2.coords t) ((dat2 V c).after 2 t) = _
  rw [after2_2]
  unfold out2_2
  rw [View.canon_unit_zero hz2]
  simp only [View.ld_unit_zero (S := S2000x96) hz2, View.ld_unit_zero (S := S96x64) hz2]
  obtain ⟨-, -, -, -, e4, e5⟩ := idx_facts2 t
  funext j
  show k2_pay1 (F := Ideal) (iblk2 V c 0 t) (iblk2 V c 1 t) j
      = plainProd (lhs2 V c) (rhs2 V c) (((cfg2.win 2).blk t).view.emb j)
  refine (pay2_read _ _ j).trans ?_
  unfold plainProd
  refine Finset.sum_congr rfl fun κ _ => ?_
  -- the right factor: the block's column coordinate is 0 · 64 + (j 1)
  have hr : (iblk2 V c 1 t : Vec Ideal S96x64 .f32) (ix2 κ (j 1))
      = rhs2 V c (ix2 κ ((((cfg2.win 2).blk t).view.emb j) 1)) := by
    rw [iblk2_1_apply V c t κ (j 1)]
    congr 1
    funext a
    apply Fin.ext
    match a with
    | ⟨0, _⟩ => rfl
    | ⟨1, _⟩ => show (j 1).val = win2_2.index t (1 : Fin 2) * 64 + 1 * (j 1).val; rw [e5]; omega
  -- the left factor: the block's row coordinate is t · 2000 + (j 0)
  have hl : (iblk2 V c 0 t : Vec Ideal S2000x96 .f32) (ix2 (j 0) κ)
      = lhs2 V c (ix2 ((((cfg2.win 2).blk t).view.emb j) 0) κ) := by
    refine iblk2_0_apply V c t (j 0) κ _ ?_ rfl
    show win2_2.index t (0 : Fin 2) * 2000 + 1 * (j 0).val = t.val * 2000 + (j 0).val
    rw [e4]; omega
  rw [hl, hr]

/-- Membership in point t's output block, coordinate by coordinate: on each axis the block spans
    [index · size, index · size + size). -/
theorem mem_blk2 (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v47).slice (win2_2.rect t)).set ↔ _
  rw [View.set_slice_whole, Rect.mem_set_unit]
  exact Iff.rfl

/-- The grid's 25 points number the 25 blocks of rows. -/
theorem idx_onto2 : ∀ q0 : Fin 25, ∃ t : Fin cfg2.N, t.val = q0.val :=
  (by decide +kernel : ∀ q0 : Fin 25, ∃ t : Fin grid2.N, t.val = q0.val)

/-- The blocks cover the output array: row r lies in the block of point r / 2000, and every column in its one column
    block. -/
theorem cover2 (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := idx_onto2 ⟨(i 0).val / 2000, by omega⟩
  obtain ⟨-, -, -, -, e4, e5⟩ := idx_facts2 t
  refine ⟨t, flush2_2 t, ?_⟩
  rw [mem_blk2]
  intro a
  match a with
  | ⟨0, _⟩ =>
    show win2_2.index t (0 : Fin 2) * 2000 ≤ (i 0).val ∧ (i 0).val < win2_2.index t (0 : Fin 2) * 2000 + 2000
    rw [e4, ht]
    show (i 0).val / 2000 * 2000 ≤ _ ∧ _ < (i 0).val / 2000 * 2000 + 2000
    omega
  | ⟨1, _⟩ =>
    show win2_2.index t (1 : Fin 2) * 64 ≤ (i 1).val ∧ (i 1).val < win2_2.index t (1 : Fin 2) * 64 + 64
    rw [e5]; omega

/-- The output array after region 2: the plain product of the two arrays as the region finds them. -/
theorem final2 (c : Dev nD) :
    (dat2 (F := Ideal) V c).arrAt 2 cfg2.N = plainProd (lhs2 V c) (rhs2 V c) :=
  -- every point writes back its block of the product, and the blocks cover the array
  (dat2 (F := Ideal) V c).arrAt_eq_of_cover 2 (plainProd (lhs2 V c) (rhs2 V c)) (fun t _ => flushed2_eq V c t) cover2

end Cert.KernelIdeal.RegionVal

end
-- ==== Proof.Region3.lean ====
/-
  Region 3 (the two heads' fused combine), read as values at the extended reals.

  Point t of the 25 takes rows 2000·t … 2000·t + 1999 of the aggregated messages, of the transformed features and of the
  column of inverse degrees, and the one row of biases, and writes, entry by entry,
  (aggregate + feature · inverse degree of the row) + bias of the column into the same rows of the 50000×64 output array;
  the blocks tile the output array.
-/
import proofs.«174296_j13417477833490_1_alg».proof.Proof.Region1
import proofs.«174296_j13417477833490_1_alg».proof.Proof.Gen.KernelIdeal.Frame
import proofs.«174296_j13417477833490_1_alg».proof.Proof.Region0
import Idealize.ShloMosaic.Lib.Pipeline.Value
import Idealize.ShloMosaic.Lib.ValueIdx
import Idealize.ShloMosaic.Lib.ValueLayout

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.RegionVal

open Cert.KernelIdeal Cert.KernelIdeal.Gen

variable (V : (c : Dev nD) → (b : Ref sig .tc) → Buf (Elt Ideal) ((c : Thread nD τ).loc b))

/-- The four arrays as region 3 finds them. -/
abbrev agg3 (c : Dev nD) : S50000x64.Idx → EReal := V c main_v59
abbrev feat3 (c : Dev nD) : S50000x64.Idx → EReal := V c main_v47
abbrev dcol3 (c : Dev nD) : S50000x1.Idx → EReal := V c main_v12
abbrev brow3 (c : Dev nD) : S1x64.Idx → EReal := V c main_v46

/-- The body's value at (p, q): the first block's entry plus the second's scaled by the column's entry of row p, plus
    the row's entry of column q. -/
theorem pay3_apply (x0 x1 : Vec Ideal S2000x64 .f32) (x2 : Vec Ideal S2000x1 .f32) (x3 : Vec Ideal S1x64 .f32) (p : Fin 2000) (q : Fin 64) :
    k3_pay1 (F := Ideal) x0 x1 x2 x3 (ix2 p q)
      = ((x0 (ix2 p q) : EReal) + (x1 (ix2 p q) : EReal) * (x2 (ix2 p (0 : Fin 1)) : EReal)) + (x3 (ix2 (0 : Fin 1) q) : EReal) := by
  unfold k3_pay1
  simp only [shapeCast_self]
  rw [addf_apply, addf_apply, mulf_apply, broadcastTo_a1_ab_apply1, broadcastTo_1b_ab_apply]

/-- The same at a general index of the block. -/
theorem pay3_read (x0 x1 : Vec Ideal S2000x64 .f32) (x2 : Vec Ideal S2000x1 .f32) (x3 : Vec Ideal S1x64 .f32) (j : S2000x64.Idx) :
    k3_pay1 (F := Ideal) x0 x1 x2 x3 j
      = ((x0 (ix2 (j 0) (j 1)) : EReal) + (x1 (ix2 (j 0) (j 1)) : EReal) * (x2 (ix2 (j 0) (0 : Fin 1)) : EReal)) + (x3 (ix2 (0 : Fin 1) (j 1)) : EReal) := by
  conv_lhs => rw [eq_ix2 j]
  exact pay3_apply x0 x1 x2 x3 (j 0) (j 1)

/-- The printed index maps over the grid: the two wide inputs, the column and the output move one block of rows per
    point, the row of biases stays. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Window 0's block at point t is rows 2000·t … of the aggregate. -/
theorem iblk3_0_apply (c : Dev nD) (t : Fin cfg3.N) (p : Fin 2000) (q : Fin 64) (k : S50000x64.Idx)
    (hk0 : (k 0).val = t.val * 2000 + p.val) (hk1 : (k 1).val = q.val) :
    (iblk3 V c 0 t : Vec Ideal S2000x64 .f32) (ix2 p q) = agg3 V c k := by
  obtain ⟨e0, e1, -, -, -, -, -, -, -, -⟩ := idx_facts3 t
  unfold iblk3
  rw [View.read_apply]
  show V c main_v59 _ = V c main_v59 _
  congr 1
  funext a
  apply Fin.ext
  match a with
  | ⟨0, _⟩ => show win3_0.index t (0 : Fin 2) * 2000 + 1 * p.val = (k 0).val; rw [e0, hk0]; omega
  | ⟨1, _⟩ => show win3_0.index t (1 : Fin 2) * 64 + 1 * q.val = (k 1).val; rw [e1, hk1]; omega

/-- Window 1's block at point t is rows 2000·t … of the features. -/
theorem iblk3_1_apply (c : Dev nD) (t : Fin cfg3.N) (p : Fin 2000) (q : Fin 64) (k : S50000x64.Idx)
    (hk0 : (k 0).val = t.val * 2000 + p.val) (hk1 : (k 1).val = q.val) :
    (iblk3 V c 1 t : Vec Ideal S2000x64 .f32) (ix2 p q) = feat3 V c k := by
  obtain ⟨-, -, e0, e1, -, -, -, -, -, -⟩ := idx_facts3 t
  unfold iblk3
  rw [View.read_apply]
  show V c main_v47 _ = V c main_v47 _
  congr 1
  funext a
  apply Fin.ext
  match a with
  | ⟨0, _⟩ => show win3_1.index t (0 : Fin 2) * 2000 + 1 * p.val = (k 0).val; rw [e0, hk0]; omega
  | ⟨1, _⟩ => show win3_1.index t (1 : Fin 2) * 64 + 1 * q.val = (k 1).val; rw [e1, hk1]; omega

/-- Window 2's block at point t is rows 2000·t … of the column. -/
theorem iblk3_2_apply (c : Dev nD) (t : Fin cfg3.N) (p : Fin 2000) (k : S50000x1.Idx)
    (hk0 : (k 0).val = t.val * 2000 + p.val) :
    (iblk3 V c 2 t : Vec Ideal S2000x1 .f32) (ix2 p (0 : Fin 1)) = dcol3 V c k := by
  obtain ⟨-, -, -, -, e0, e1, -, -, -, -⟩ := idx_facts3 t
  have hk1 : (k 1).val < 1 := (k 1).isLt
  unfold iblk3
  rw [View.read_apply]
  show V c main_v12 _ = V c main_v12 _
  congr 1
  funext a
  apply Fin.ext
  match a with
  | ⟨0, _⟩ => show win3_2.index t (0 : Fin 2) * 2000 + 1 * p.val = (k 0).val; rw [e0, hk0]; omega
  | ⟨1, _⟩ => show win3_2.index t (1 : Fin 2) * 1 + 1 * 0 = (k 1).val; rw [e1]; omega

/-- Window 3's block at every point is the whole row of biases. -/
theorem iblk3_3_apply (c : Dev nD) (t : Fin cfg3.N) (q : Fin 64) (k : S1x64.Idx)
    (hk1 : (k 1).val = q.val) :
    (iblk3 V c 3 t : Vec Ideal S1x64 .f32) (ix2 (0 : Fin 1) q) = brow3 V c k := by
  obtain ⟨-, -, -, -, -, -, e0, e1, -, -⟩ := idx_facts3 t
  have hk0 : (k 0).val < 1 := (k 0).isLt
  unfold iblk3
  rw [View.read_apply]
  show V c main_v46 _ = V c main_v46 _
  congr 1
  funext a
  apply Fin.ext
  match a with
  | ⟨0, _⟩ => show win3_3.index t (0 : Fin 2) * 1 + 1 * 0 = (k 0).val; rw [e0]; omega
  | ⟨1, _⟩ => show win3_3.index t (1 : Fin 2) * 64 + 1 * q.val = (k 1).val; rw [e1, hk1]; omega

/-- What point t writes back is block t of the combined array. -/
theorem flushed3_eq (c : Dev nD) (t : Fin cfg3.N) :
    (dat3 (F := Ideal) V c).flushed 4 t
      = ((cfg3.win 4).blk t).view.read (Elt Ideal) (combineLin (agg3 V c) (feat3 V c) (dcol3 V c) (brow3 V c)) := by
  show (cfg3.win 4).cut (grid3.coords t) ((dat3 V c).after 4 t) = _
  rw [after3_4]
  unfold out3_4
  rw [View.canon_unit_zero hz2]
  simp only [View.ld_unit_zero (S := S2000x64) hz2, View.ld_unit_zero (S := S2000x1) hz2, View.ld_unit_zero (S := S1x64) hz2]
  obtain ⟨-, -, -, -, -, -, -, -, e8, e9⟩ := idx_facts3 t
  funext j
  show k3_pay1 (F := Ideal) (iblk3 V c 0 t) (iblk3 V c 1 t) (iblk3 V c 2 t) (iblk3 V c 3 t) j
      = combineLin (agg3 V c) (feat3 V c) (dcol3 V c) (brow3 V c) (((cfg3.win 4).blk t).view.emb j)
  refine (pay3_read _ _ _ _ j).trans ?_
  unfold combineLin
  have h0 : win3_4.index t (0 : Fin 2) * 2000 + 1 * (j 0).val = t.val * 2000 + (j 0).val := by rw [e8]; omega
  have h1 : win3_4.index t (1 : Fin 2) * 64 + 1 * (j 1).val = (j 1).val := by rw [e9]; omega
  congr 1
  · congr 1
    · exact iblk3_0_apply V c t (j 0) (j 1) _ h0 h1
    · congr 1
      · exact iblk3_1_apply V c t (j 0) (j 1) _ h0 h1
      · exact iblk3_2_apply V c t (j 0) _ h0
  · exact iblk3_3_apply V c t (j 1) _ h1

/-- An index of the output array is in point t's block iff each coordinate is in the block's range on its axis. -/
theorem mem_blk3 (t : Fin cfg3.N) (i : S50000x64.Idx) :
    i ∈ ((cfg3.win 4).blk t).view.set ↔ ∀ a : Fin 2, win3_4.index t a * S2000x64.size a ≤ (i a).val ∧ (i a).val < win3_4.index t a * S2000x64.size a + S2000x64.size a := by
  show i ∈ ((View.whole main_v60).slice (win3_4.rect t)).set ↔ _
  rw [View.set_slice_whole, Rect.mem_set_unit]
  exact Iff.rfl

/-- Every block index 0 … 24 is some point's. -/
theorem idx_onto3 : ∀ q0 : Fin 25, ∃ t : Fin cfg3.N, t.val = q0.val :=
  (by decide +kernel : ∀ q0 : Fin 25, ∃ t : Fin grid3.N, t.val = q0.val)

/-- Every index of the output array is in some point's block: row r is in the block of point r / 2000. -/
theorem cover3 (i : S50000x64.Idx) : ∃ t : Fin cfg3.N, (cfg3.win 4).flush t = true ∧ i ∈ ((cfg3.win 4).blk t).view.set := by
  have hi0 : (i 0).val < 50000 := (i 0).isLt
  have hi1 : (i 1).val < 64 := (i 1).isLt
  obtain ⟨t, ht⟩ := idx_onto3 ⟨(i 0).val / 2000, by omega⟩
  obtain ⟨-, -, -, -, -, -, -, -, e8, e9⟩ := idx_facts3 t
  refine ⟨t, flush3_4 t, ?_⟩
  rw [mem_blk3]
  intro a
  match a with
  | ⟨0, _⟩ =>
    show win3_4.index t (0 : Fin 2) * 2000 ≤ (i 0).val ∧ (i 0).val < win3_4.index t (0 : Fin 2) * 2000 + 2000
    rw [e8, ht]
    show (i 0).val / 2000 * 2000 ≤ _ ∧ _ < (i 0).val / 2000 * 2000 + 2000
    omega
  | ⟨1, _⟩ =>
    show win3_4.index t (1 : Fin 2) * 64 ≤ (i 1).val ∧ (i 1).val < win3_4.index t (1 : Fin 2) * 64 + 64
    rw [e9]
    omega

/-- The output array after region 3. -/
theorem final3 (c : Dev nD) :
    (dat3 (F := Ideal) V c).arrAt 4 cfg3.N = combineLin (agg3 V c) (feat3 V c) (dcol3 V c) (brow3 V c) := by
  exact (dat3 (F := Ideal) V c).arrAt_eq_of_cover 4 (combineLin (agg3 V c) (feat3 V c) (dcol3 V c) (brow3 V c))
    (fun t _ => flushed3_eq V c t) cover3

end Cert.KernelIdeal.RegionVal

end
-- ==== Proof.LibRowGather.lean ====
/-
  A row gather read at an index.

  For an N×C table, an E×1 column of start indices and dimension numbers that collapse the row axis, index it from the
  column, and keep the whole column axis as the one offset axis, the result's entry (e, q) is the table's entry
  (row e, q), where row e is the e-th start index read as a signed number and clamped into [0, N - 1].
-/
import Idealize.ShloMosaic.PureOps.ShapeOps
import Idealize.ShloMosaic.Lib.ValueIdx

noncomputable section

namespace Idealize.ShloMosaic.RowOps
open Idealize.ShloMosaic Idealize.ShloMosaic.ValueIdx

/-- Gather whole rows of an N×C table at an E×1 column of row numbers: axis 0 collapsed and start-indexed, axis 1 the
    one offset axis, no batching axes, the index vector on axis 1 of the start indices. -/
structure IsRowGather {N E C : Nat} (d : GatherDims ⟨2, ![N, C]⟩ ⟨2, ![E, 1]⟩ ⟨2, ![E, C]⟩) : Prop where
  od : d.offsetDims = [1]
  cs : d.collapsedSliceDims = [0]
  ob : d.operandBatchingDims = []
  sb : d.startIndicesBatchingDims = []
  sim : d.startIndexMap = [0]
  ivd : d.indexVectorDim = 1

/-- The row the e-th start index names: read signed, clamped into the table. -/
def rowOf {E w : Nat} (N : Nat) (idx : IVec ⟨2, ![E, 1]⟩ w) (e : Fin E) : Nat :=
  min (idx (ix2 e (0 : Fin 1))).toInt.toNat (N - 1)

theorem rowOf_lt {E w : Nat} {N : Nat} (hN : 0 < N) (idx : IVec ⟨2, ![E, 1]⟩ w) (e : Fin E) : rowOf N idx e < N := by
  unfold rowOf; omega

/-- The dimension numbers of a row gather written out: offset axis 1, collapsed axis 0, no batching axes, start index map
    [0], the index vector on axis 1; the slice sizes stay a variable. -/
private abbrev rgDims (N E C : Nat) (ss : Fin 2 → Nat)
    (wf : GatherDims.WF ⟨2, ![N, C]⟩ ⟨2, ![E, 1]⟩ ⟨2, ![E, C]⟩ [1] [0] [] [0] [] 1 ss) :
    GatherDims ⟨2, ![N, C]⟩ ⟨2, ![E, 1]⟩ ⟨2, ![E, C]⟩ :=
  ⟨[1], [0], [], [], [0], 1, ss, wf⟩

/-- Where result index (e, q) reads its start index's one component: on axis 0 (not the index vector's) the coordinate
    of (e, q) on the result's only batch axis, axis 0, which is e; on axis 1 (the index vector's) the component number,
    the position of operand axis 0 in the start index map [0], which is 0. -/
private theorem rg_siIdx {N E C : Nat} (ss : Fin 2 → Nat)
    (wf : GatherDims.WF ⟨2, ![N, C]⟩ ⟨2, ![E, 1]⟩ ⟨2, ![E, C]⟩ [1] [0] [] [0] [] 1 ss) (e : Fin E) (q : Fin C)
    (h : List.idxOf (0 : Fin 2) [0] < (rgDims N E C ss wf).startIndexMap.length) :
    (rgDims N E C ss wf).siIdx (ix2 e q) ⟨List.idxOf (0 : Fin 2) [0], h⟩ = ix2 e (0 : Fin 1) := by
  funext b
  refine Fin.ext ?_
  match b with
  | ⟨0, _⟩ => rfl
  | ⟨1, _⟩ => rfl

/-- The row coordinate of the operand index: axis 0 is collapsed (slice size 1, no offset coordinate), not batching, and
    in the start index map, so the coordinate is the start index clamped into [0, N - 1]. -/
private theorem rg_row {N E C w : Nat} (ss : Fin 2 → Nat)
    (wf : GatherDims.WF ⟨2, ![N, C]⟩ ⟨2, ![E, 1]⟩ ⟨2, ![E, C]⟩ [1] [0] [] [0] [] 1 ss)
    (idx : IVec ⟨2, ![E, 1]⟩ w) (e : Fin E) (q : Fin C) :
    ((rgDims N E C ss wf).operandIdx (ix2 e q) idx 0).val = rowOf N idx e := by
  have hsl : ss 0 = 1 := wf.2.2.2.2.2.2.2.2.2.2.2.1 0 (List.mem_singleton.mpr rfl)
  have hm : (0 : Fin 2) ∈ (rgDims N E C ss wf).startIndexMap := List.mem_singleton.mpr rfl
  show (rgDims N E C ss wf).start (ix2 e q) idx 0 + (rgDims N E C ss wf).batchCoord (ix2 e q) 0
    + (rgDims N E C ss wf).offCoord (ix2 e q) 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos hm]
  show min (idx ((rgDims N E C ss wf).siIdx (ix2 e q) ⟨List.idxOf (0 : Fin 2) [0], _⟩)).toInt.toNat (N - ss 0) + 0 + 0 = _
  rw [rg_siIdx ss wf e q, hsl]
  rfl

/-- The column coordinate of the operand index: axis 1 is not in the start index map (start 0), not batching, and is
    the operand's one kept axis, read by the result's one offset axis, axis 1, whose coordinate is q. -/
private theorem rg_col {N E C w : Nat} (ss : Fin 2 → Nat)
    (wf : GatherDims.WF ⟨2, ![N, C]⟩ ⟨2, ![E, 1]⟩ ⟨2, ![E, C]⟩ [1] [0] [] [0] [] 1 ss)
    (idx : IVec ⟨2, ![E, 1]⟩ w) (e : Fin E) (q : Fin C) :
    ((rgDims N E C ss wf).operandIdx (ix2 e q) idx 1).val = q.val := by
  have hm : (1 : Fin 2) ∉ (rgDims N E C ss wf).startIndexMap := fun h =>
    absurd (congrArg Fin.val (List.mem_singleton.mp h)) Nat.one_ne_zero
  have hk : (1 : Fin 2) ∈ (rgDims N E C ss wf).sKept := by
    rw [GatherDims.mem_sKept]
    exact ⟨fun h => absurd (congrArg Fin.val (List.mem_singleton.mp h)) Nat.one_ne_zero, List.not_mem_nil⟩
  show (rgDims N E C ss wf).start (ix2 e q) idx 1 + (rgDims N E C ss wf).batchCoord (ix2 e q) 1
    + (rgDims N E C ss wf).offCoord (ix2 e q) 1 = _
  rw [GatherDims.batchCoord_eq_zero _ _ _ List.not_mem_nil]
  unfold GatherDims.start GatherDims.offCoord
  rw [dif_neg hm, dif_pos hk]
  simp only [Nat.zero_add]
  rfl

/-- Entry (e, q) of the gathered array is entry (row e, q) of the table. -/
theorem rowGather_apply {α : Type} {N E C w : Nat} (d : GatherDims ⟨2, ![N, C]⟩ ⟨2, ![E, 1]⟩ ⟨2, ![E, C]⟩) (hd : IsRowGather d)
    (hN : 0 < N) (x : (⟨2, ![N, C]⟩ : Shape).Idx → α) (idx : IVec ⟨2, ![E, 1]⟩ w) (e : Fin E) (q : Fin C) :
    Host.gather d x idx (ix2 e q) = x (ix2 ⟨rowOf N idx e, rowOf_lt hN idx e⟩ q) := by
  -- make every list of the dimension numbers a literal, then compare the operand index with (row e, q) axis by axis
  obtain ⟨od, cs, ob, sb, sim, ivd, ss, wf⟩ := d
  obtain ⟨h1, h2, h3, h4, h5, h6⟩ := hd
  simp only at h1 h2 h3 h4 h5 h6
  subst h1 h2 h3 h4 h5 h6
  unfold Host.gather
  congr 1
  funext a
  refine Fin.ext ?_
  match a with
  | ⟨0, _⟩ => exact rg_row ss wf idx e q
  | ⟨1, _⟩ => exact rg_col ss wf idx e q

end Idealize.ShloMosaic.RowOps

end
-- ==== Proof.LibRowScatterAdd.lean ====
/-
  A row scatter-add read at an index, at the extended reals.

  For an N×C accumulator, an E×1 column of row numbers and E×C updates, with dimension numbers that insert the row axis
  from the column and carry the column axis as the one window axis, entry (n, q) of the result is the accumulator's
  entry plus the sum, over the edges e whose row number (read signed, not clamped) is n, of the update's entry (e, q).
  An edge whose row number is outside [0, N) lands nowhere.
-/
import Idealize.ShloMosaic.PureOps.Ideal
import Idealize.ShloMosaic.Lib.ValueIdx

noncomputable section

open scoped BigOperators

namespace Idealize.ShloMosaic.RowOps
open Idealize.ShloMosaic Idealize.ShloMosaic.ValueIdx

/-- Add rows of E×C updates into an N×C accumulator at an E×1 column of row numbers: axis 1 of the updates is the one
    window axis, axis 0 of the accumulator is inserted and is where the row number goes, the index vector on axis 1 of the
    scatter indices. -/
structure IsRowScatter {N E C : Nat} (d : ScatterDims ⟨2, ![N, C]⟩ ⟨2, ![E, 1]⟩ ⟨2, ![E, C]⟩) : Prop where
  uw : d.updateWindowDims = [1]
  iw : d.insertedWindowDims = [0]
  sd : d.scatterDimsToOperandDims = [0]
  ivd : d.indexVectorDim = 1

/-- On the row axis the window starts at the edge's row number, read signed. -/
private theorem start_row {N E C w : Nat} (d : ScatterDims ⟨2, ![N, C]⟩ ⟨2, ![E, 1]⟩ ⟨2, ![E, C]⟩) (hd : IsRowScatter d)
    (idx : IVec ⟨2, ![E, 1]⟩ w) (e : Fin E) (q : Fin C) :
    d.start (ix2 e q) idx (0 : Fin 2) = (idx (ix2 e (0 : Fin 1))).toInt := by
  obtain ⟨uw, iw, sd, ivd, wf⟩ := d
  obtain ⟨h1, h2, h3, h4⟩ := hd
  simp only at h1 h2 h3 h4
  subst h1 h2 h3 h4
  unfold ScatterDims.start
  simp only
  rw [dif_pos (List.mem_singleton.mpr rfl)]
  congr 2
  funext b
  match b with
  | ⟨0, _⟩ =>
    -- scatter-indices axis 0 carries the update's one scatter coordinate, the edge number
    unfold ScatterDims.siIdx
    simp only
    rw [dif_neg (by decide)]
    unfold ScatterDims.siCoord
    apply Fin.ext
    simp only [Fin.val_cast]
    rfl
  | ⟨1, _⟩ =>
    -- scatter-indices axis 1 is the index vector's: component 0, the position of the row axis in the map
    unfold ScatterDims.siIdx
    simp only
    rw [dif_pos trivial]
    apply Fin.ext
    rfl

/-- The column axis is not named by the map: the window starts at 0 there. -/
private theorem start_col {N E C w : Nat} (d : ScatterDims ⟨2, ![N, C]⟩ ⟨2, ![E, 1]⟩ ⟨2, ![E, C]⟩) (hd : IsRowScatter d)
    (idx : IVec ⟨2, ![E, 1]⟩ w) (j : (⟨2, ![E, C]⟩ : Shape).Idx) :
    d.start j idx (1 : Fin 2) = 0 := by
  obtain ⟨uw, iw, sd, ivd, wf⟩ := d
  obtain ⟨h1, h2, h3, h4⟩ := hd
  simp only at h1 h2 h3 h4
  subst h1 h2 h3 h4
  unfold ScatterDims.start
  simp only
  rw [dif_neg (by show (1 : Fin 2) ∉ [(0 : Fin 2)]; decide)]

/-- The row axis is inserted: no window coordinate there. -/
private theorem window_row {N E C : Nat} (d : ScatterDims ⟨2, ![N, C]⟩ ⟨2, ![E, 1]⟩ ⟨2, ![E, C]⟩) (hd : IsRowScatter d)
    (j : (⟨2, ![E, C]⟩ : Shape).Idx) :
    d.window j (0 : Fin 2) = 0 := by
  obtain ⟨uw, iw, sd, ivd, wf⟩ := d
  obtain ⟨h1, h2, h3, h4⟩ := hd
  simp only at h1 h2 h3 h4
  subst h1 h2 h3 h4
  unfold ScatterDims.window
  simp only
  rw [dif_neg (by show (0 : Fin 2) ∉ (List.finRange 2).filter (· ∉ [(0 : Fin 2)]); decide)]

/-- The column axis is the one kept axis: its window coordinate is the update's column. -/
private theorem window_col {N E C : Nat} (d : ScatterDims ⟨2, ![N, C]⟩ ⟨2, ![E, 1]⟩ ⟨2, ![E, C]⟩) (hd : IsRowScatter d)
    (e : Fin E) (q : Fin C) :
    d.window (ix2 e q) (1 : Fin 2) = q.val := by
  obtain ⟨uw, iw, sd, ivd, wf⟩ := d
  obtain ⟨h1, h2, h3, h4⟩ := hd
  simp only at h1 h2 h3 h4
  subst h1 h2 h3 h4
  unfold ScatterDims.window
  simp only
  rw [dif_pos (by show (1 : Fin 2) ∈ (List.finRange 2).filter (· ∉ [(0 : Fin 2)]); decide)]
  rfl

/-- Update entry (e, q) lands on accumulator entry (n, q') exactly when edge e's row number is n and the columns agree. -/
theorem rowScatter_resultIdx {N E C w : Nat} (d : ScatterDims ⟨2, ![N, C]⟩ ⟨2, ![E, 1]⟩ ⟨2, ![E, C]⟩) (hd : IsRowScatter d)
    (idx : IVec ⟨2, ![E, 1]⟩ w) (e : Fin E) (q : Fin C) (n : Fin N) (q' : Fin C) :
    d.resultIdx? (ix2 e q) idx = some (ix2 n q') ↔ (idx (ix2 e (0 : Fin 1))).toInt = (n.val : Int) ∧ q = q' := by
  have hs0 := start_row d hd idx e q
  have hs1 := start_col d hd idx (ix2 e q)
  have hw0 := window_row d hd (ix2 e q)
  have hw1 := window_col d hd e q
  unfold ScatterDims.resultIdx?
  constructor
  · intro h
    split at h
    · rename_i hall
      have h' := Option.some.inj h
      have v0 : (d.start (ix2 e q) idx (0 : Fin 2) + d.window (ix2 e q) (0 : Fin 2)).toNat = n.val :=
        congrArg Fin.val (congrFun h' (0 : Fin 2))
      have v1 : (d.start (ix2 e q) idx (1 : Fin 2) + d.window (ix2 e q) (1 : Fin 2)).toNat = q'.val :=
        congrArg Fin.val (congrFun h' (1 : Fin 2))
      have a0 := (hall (0 : Fin 2)).1
      rw [hs0, hw0] at v0 a0
      rw [hs1, hw1] at v1
      refine ⟨by omega, Fin.ext (by omega)⟩
    · exact absurd h (by simp)
  · rintro ⟨hr, rfl⟩
    have hall : ∀ a, 0 ≤ d.start (ix2 e q) idx a + d.window (ix2 e q) a ∧
        d.start (ix2 e q) idx a + d.window (ix2 e q) a < (⟨2, ![N, C]⟩ : Shape).size a := by
      intro a
      match a with
      | ⟨0, _⟩ =>
        show 0 ≤ d.start (ix2 e q) idx (0 : Fin 2) + d.window (ix2 e q) (0 : Fin 2) ∧
          d.start (ix2 e q) idx (0 : Fin 2) + d.window (ix2 e q) (0 : Fin 2) < (N : Int)
        rw [hs0, hw0, hr]
        have := n.isLt
        omega
      | ⟨1, _⟩ =>
        show 0 ≤ d.start (ix2 e q) idx (1 : Fin 2) + d.window (ix2 e q) (1 : Fin 2) ∧
          d.start (ix2 e q) idx (1 : Fin 2) + d.window (ix2 e q) (1 : Fin 2) < (C : Int)
        rw [hs1, hw1]
        have := q.isLt
        omega
    rw [dif_pos hall]
    congr 1
    funext a
    match a with
    | ⟨0, _⟩ =>
      apply Fin.ext
      show (d.start (ix2 e q) idx (0 : Fin 2) + d.window (ix2 e q) (0 : Fin 2)).toNat = n.val
      rw [hs0, hw0, hr]
      omega
    | ⟨1, _⟩ =>
      apply Fin.ext
      show (d.start (ix2 e q) idx (1 : Fin 2) + d.window (ix2 e q) (1 : Fin 2)).toNat = q.val
      rw [hs1, hw1]
      omega

/-- Entry (n, q) of the accumulated array: the accumulator's entry plus the updates (e, q) of the edges that name row n. -/
theorem rowScatterAdd_apply {N E C w : Nat} (d : ScatterDims ⟨2, ![N, C]⟩ ⟨2, ![E, 1]⟩ ⟨2, ![E, C]⟩) (hd : IsRowScatter d)
    (x : (⟨2, ![N, C]⟩ : Shape).Idx → EReal) (idx : IVec ⟨2, ![E, 1]⟩ w) (upd : (⟨2, ![E, C]⟩ : Shape).Idx → EReal)
    (n : Fin N) (q : Fin C) :
    Ideal.hostScatterAdd d x idx upd (ix2 n q)
      = x (ix2 n q) + ∑ e ∈ Finset.univ.filter (fun e : Fin E => (idx (ix2 e (0 : Fin 1))).toInt = (n.val : Int)), upd (ix2 e q) := by
  unfold Ideal.hostScatterAdd
  congr 1
  symm
  -- the edges naming row n correspond one to one, by e ↦ (e, q), to the update entries landing on (n, q)
  refine Finset.sum_bij (fun e _ => ix2 e q) ?_ ?_ ?_ ?_
  · intro e he
    rw [Finset.mem_filter] at he ⊢
    exact ⟨Finset.mem_univ _, (rowScatter_resultIdx d hd idx e q n q).2 ⟨he.2, rfl⟩⟩
  · intro e₁ _ e₂ _ h
    exact congrFun h (0 : Fin 2)
  · intro j hj
    rw [Finset.mem_filter] at hj
    have hj2 := hj.2
    rw [eq_ix2 j] at hj2
    obtain ⟨hr, hq⟩ := (rowScatter_resultIdx d hd idx (j 0) (j 1) n q).1 hj2
    refine ⟨(j 0 : Fin E), Finset.mem_filter.2 ⟨Finset.mem_univ _, hr⟩, ?_⟩
    rw [← hq]; exact (eq_ix2 j).symm
  · intro e _
    rfl

end Idealize.ShloMosaic.RowOps

end
-- ==== Proof.LibCatCols.lean ====
/-
  Two blocks of columns side by side.

  An n×a array and an n×b array laid side by side make an n×c array, c = a + b: column q < a of the result is column q of
  the first, column q ≥ a is column q - a of the second. Concatenation along the column axis builds such an array, the two
  column slices take it apart again, and the operations that treat every column alike (a gather of whole rows, a
  scatter-add of whole rows) act on the two blocks separately.
-/
import proofs.«174296_j13417477833490_1_alg».proof.Proof.LibRowGather
import proofs.«174296_j13417477833490_1_alg».proof.Proof.LibRowScatterAdd
import Idealize.ShloMosaic.Lib.Pipeline.Value
import Idealize.ShloMosaic.Lib.ValueLayout

noncomputable section

open scoped BigOperators

namespace Idealize.ShloMosaic.RowOps
open Idealize.ShloMosaic Idealize.ShloMosaic.ValueIdx

/-- The n×c array whose first a columns are x and whose last b columns are y. -/
def catCols {α : Type} {n a b c : Nat} (hc : a + b = c) (x : (⟨2, ![n, a]⟩ : Shape).Idx → α) (y : (⟨2, ![n, b]⟩ : Shape).Idx → α) :
    (⟨2, ![n, c]⟩ : Shape).Idx → α :=
  fun j => if h : (j 1).val < a then x (ix2 (j 0) ⟨(j 1).val, h⟩)
    else y (ix2 (j 0) ⟨(j 1).val - a, by have := (j 1).isLt; simp at this; omega⟩)

theorem catCols_left {α : Type} {n a b c : Nat} (hc : a + b = c) (x : (⟨2, ![n, a]⟩ : Shape).Idx → α) (y : (⟨2, ![n, b]⟩ : Shape).Idx → α)
    (p : Fin n) (q : Fin a) : catCols hc x y (ix2 p ⟨q.val, by omega⟩) = x (ix2 p q) := by
  have h : ((ix2 p (⟨q.val, by omega⟩ : Fin c) : (⟨2, ![n, c]⟩ : Shape).Idx) 1).val < a := q.isLt
  unfold catCols
  exact dif_pos h

theorem catCols_right {α : Type} {n a b c : Nat} (hc : a + b = c) (x : (⟨2, ![n, a]⟩ : Shape).Idx → α) (y : (⟨2, ![n, b]⟩ : Shape).Idx → α)
    (p : Fin n) (q : Fin b) : catCols hc x y (ix2 p ⟨a + q.val, by omega⟩) = y (ix2 p q) := by
  have h : ¬ ((ix2 p (⟨a + q.val, by omega⟩ : Fin c) : (⟨2, ![n, c]⟩ : Shape).Idx) 1).val < a :=
    Nat.not_lt.2 (Nat.le_add_right a q.val)
  unfold catCols
  refine (dif_neg h).trans ?_
  -- the column a + q, less a, is q
  exact congrArg (fun t : Fin b => y (ix2 p t)) (Fin.ext (Nat.add_sub_cancel_left a q.val))

/-- Two arrays that agree with x on the first a columns and with y on the rest are catCols x y. -/
theorem eq_catCols {α : Type} {n a b c : Nat} (hc : a + b = c) (x : (⟨2, ![n, a]⟩ : Shape).Idx → α) (y : (⟨2, ![n, b]⟩ : Shape).Idx → α)
    (z : (⟨2, ![n, c]⟩ : Shape).Idx → α)
    (hl : ∀ (p : Fin n) (q : Fin a), z (ix2 p ⟨q.val, by omega⟩) = x (ix2 p q))
    (hr : ∀ (p : Fin n) (q : Fin b), z (ix2 p ⟨a + q.val, by omega⟩) = y (ix2 p q)) : z = catCols hc x y := by
  funext j
  obtain ⟨p, q, rfl⟩ : ∃ p q, j = ix2 p q := ⟨j 0, j 1, eq_ix2 j⟩
  by_cases hq : q.val < a
  · -- a column of the first block
    exact (hl p ⟨q.val, hq⟩).trans (catCols_left hc x y p ⟨q.val, hq⟩).symm
  · -- a column of the second block: q = a + (q - a)
    have hq' : q.val - a < b := by have := q.isLt; omega
    have e : q = ⟨a + (q.val - a), by omega⟩ := Fin.ext (by show q.val = a + (q.val - a); omega)
    calc z (ix2 p q)
        = z (ix2 p ⟨a + (q.val - a), by omega⟩) := congrArg (fun t : Fin c => z (ix2 p t)) e
      _ = y (ix2 p ⟨q.val - a, hq'⟩) := hr p ⟨q.val - a, hq'⟩
      _ = catCols hc x y (ix2 p ⟨a + (q.val - a), by omega⟩) := (catCols_right hc x y p ⟨q.val - a, hq'⟩).symm
      _ = catCols hc x y (ix2 p q) := congrArg (fun t : Fin c => catCols hc x y (ix2 p t)) e.symm

/-- Concatenation along the column axis lays the two arrays side by side. -/
theorem concatenate_cols {α : Type} {n a b c : Nat} (hc : a + b = c) (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ (1 : Fin 2)) :
    concatenate (⟨2, ![n, c]⟩ : Shape) (1 : Fin 2) [⟨⟨2, ![n, a]⟩, x⟩, ⟨⟨2, ![n, b]⟩, y⟩] h = catCols hc x y := by
  refine eq_catCols hc x y _ (fun p q => ?_) (fun p q => ?_)
  · -- a column below a falls in the first piece, at the same coordinates
    exact concatenate_pair_apply_left (t := ⟨2, ![n, c]⟩) (1 : Fin 2) x y h (ix2 p ⟨q.val, by omega⟩) rfl (ix2 p q)
      (fun b => by
        match b with
        | ⟨0, _⟩ => rfl
        | ⟨1, _⟩ => rfl)
  · -- a column a + q falls in the second piece, at column q
    exact concatenate_pair_apply_right (t := ⟨2, ![n, c]⟩) (1 : Fin 2) x y h (ix2 p ⟨a + q.val, by omega⟩) rfl rfl (ix2 p q)
      (fun b hb => by
        match b, hb with
        | ⟨0, _⟩, _ => rfl
        | ⟨1, _⟩, hb => exact absurd rfl hb)
      (by show q.val + a = a + q.val; omega)

/-- Concatenating two vectors and reading the result as a one-row array lays the two one-row arrays side by side. -/
theorem concatenate_row {α : Type} {a b c : Nat} (hc : a + b = c) (x : (⟨1, ![a]⟩ : Shape).Idx → α) (y : (⟨1, ![b]⟩ : Shape).Idx → α)
    (h : Shape.Concatenates [(⟨1, ![a]⟩ : Shape), ⟨1, ![b]⟩] ⟨1, ![c]⟩ (0 : Fin 1))
    (hcc : (⟨1, ![c]⟩ : Shape).ShapeCasts ⟨2, ![1, c]⟩) (hca : (⟨1, ![a]⟩ : Shape).ShapeCasts ⟨2, ![1, a]⟩)
    (hcb : (⟨1, ![b]⟩ : Shape).ShapeCasts ⟨2, ![1, b]⟩) :
    shapeCast (⟨2, ![1, c]⟩ : Shape) (concatenate (⟨1, ![c]⟩ : Shape) (0 : Fin 1) [⟨⟨1, ![a]⟩, x⟩, ⟨⟨1, ![b]⟩, y⟩] h) hcc
      = catCols hc (shapeCast (⟨2, ![1, a]⟩ : Shape) x hca) (shapeCast (⟨2, ![1, b]⟩ : Shape) y hcb) := by
  refine eq_catCols hc _ _ _ (fun p q => ?_) (fun p q => ?_)
  · rw [shapeCast_a_1a_apply, shapeCast_a_1a_apply]
    -- a position below a falls in the first vector, at the same position
    exact concatenate_pair_apply_left (t := ⟨1, ![c]⟩) (0 : Fin 1) x y h (ix1 ⟨q.val, by omega⟩) rfl (ix1 q)
      (fun b => by
        match b with
        | ⟨0, _⟩ => rfl)
  · rw [shapeCast_a_1a_apply, shapeCast_a_1a_apply]
    -- a position a + q falls in the second vector, at position q
    exact concatenate_pair_apply_right (t := ⟨1, ![c]⟩) (0 : Fin 1) x y h (ix1 ⟨a + q.val, by omega⟩) rfl rfl (ix1 q)
      (fun b hb => by
        match b, hb with
        | ⟨0, _⟩, hb => exact absurd rfl hb)
      (by show q.val + a = a + q.val; omega)

/-- The slice of the first a columns takes the first block back. -/
theorem slice_cols_left {α : Type} {n a b c : Nat} (hc : a + b = c) (x : (⟨2, ![n, a]⟩ : Shape).Idx → α) (y : (⟨2, ![n, b]⟩ : Shape).Idx → α)
    (h : (⟨2, ![n, c]⟩ : Shape).Slices ![0, 0] ⟨2, ![n, a]⟩) :
    extractStridedSlice (⟨2, ![n, a]⟩ : Shape) ![0, 0] (catCols hc x y) h = x := by
  funext j
  obtain ⟨p, q, rfl⟩ : ∃ p q, j = ix2 p q := ⟨j 0, j 1, eq_ix2 j⟩
  rw [slice2_axis1_apply 0 (catCols hc x y) h p q ⟨q.val, by omega⟩ (Nat.zero_add _).symm]
  exact catCols_left hc x y p q

/-- The slice of the last b columns takes the second block back. -/
theorem slice_cols_right {α : Type} {n a b c : Nat} (hc : a + b = c) (x : (⟨2, ![n, a]⟩ : Shape).Idx → α) (y : (⟨2, ![n, b]⟩ : Shape).Idx → α)
    (h : (⟨2, ![n, c]⟩ : Shape).Slices ![0, a] ⟨2, ![n, b]⟩) :
    extractStridedSlice (⟨2, ![n, b]⟩ : Shape) ![0, a] (catCols hc x y) h = y := by
  funext j
  obtain ⟨p, q, rfl⟩ : ∃ p q, j = ix2 p q := ⟨j 0, j 1, eq_ix2 j⟩
  rw [slice2_axis1_apply a (catCols hc x y) h p q ⟨a + q.val, by omega⟩ rfl]
  exact catCols_right hc x y p q

/-- A gather of whole rows acts on the two blocks separately. -/
theorem rowGather_catCols {α : Type} {N E a b c w : Nat} (hc : a + b = c) (hN : 0 < N)
    (d : GatherDims ⟨2, ![N, c]⟩ ⟨2, ![E, 1]⟩ ⟨2, ![E, c]⟩) (hd : IsRowGather d)
    (da : GatherDims ⟨2, ![N, a]⟩ ⟨2, ![E, 1]⟩ ⟨2, ![E, a]⟩) (hda : IsRowGather da)
    (db : GatherDims ⟨2, ![N, b]⟩ ⟨2, ![E, 1]⟩ ⟨2, ![E, b]⟩) (hdb : IsRowGather db)
    (x : (⟨2, ![N, a]⟩ : Shape).Idx → α) (y : (⟨2, ![N, b]⟩ : Shape).Idx → α) (idx : IVec ⟨2, ![E, 1]⟩ w) :
    Host.gather d (catCols hc x y) idx = catCols hc (Host.gather da x idx) (Host.gather db y idx) := by
  refine eq_catCols hc _ _ _ (fun p q => ?_) (fun p q => ?_)
  · rw [rowGather_apply d hd hN, rowGather_apply da hda hN]
    exact catCols_left hc x y _ q
  · rw [rowGather_apply d hd hN, rowGather_apply db hdb hN]
    exact catCols_right hc x y _ q

/-- A scatter-add of whole rows acts on the two blocks separately. -/
theorem rowScatterAdd_catCols {N E a b c w : Nat} (hc : a + b = c)
    (d : ScatterDims ⟨2, ![N, c]⟩ ⟨2, ![E, 1]⟩ ⟨2, ![E, c]⟩) (hd : IsRowScatter d)
    (da : ScatterDims ⟨2, ![N, a]⟩ ⟨2, ![E, 1]⟩ ⟨2, ![E, a]⟩) (hda : IsRowScatter da)
    (db : ScatterDims ⟨2, ![N, b]⟩ ⟨2, ![E, 1]⟩ ⟨2, ![E, b]⟩) (hdb : IsRowScatter db)
    (x : (⟨2, ![N, a]⟩ : Shape).Idx → EReal) (y : (⟨2, ![N, b]⟩ : Shape).Idx → EReal)
    (u : (⟨2, ![E, a]⟩ : Shape).Idx → EReal) (v : (⟨2, ![E, b]⟩ : Shape).Idx → EReal) (idx : IVec ⟨2, ![E, 1]⟩ w) :
    Ideal.hostScatterAdd d (catCols hc x y) idx (catCols hc u v)
      = catCols hc (Ideal.hostScatterAdd da x idx u) (Ideal.hostScatterAdd db y idx v) := by
  refine eq_catCols hc _ _ _ (fun p q => ?_) (fun p q => ?_)
  · rw [rowScatterAdd_apply d hd, rowScatterAdd_apply da hda, catCols_left hc x y p q]
    congr 1
    exact Finset.sum_congr rfl (fun e _ => catCols_left hc u v e q)
  · rw [rowScatterAdd_apply d hd, rowScatterAdd_apply db hdb, catCols_right hc x y p q]
    congr 1
    exact Finset.sum_congr rfl (fun e _ => catCols_right hc u v e q)

end Idealize.ShloMosaic.RowOps

end
-- ==== Proof.Layer2.lean ====
/-
  Arithmetic on two blocks of columns side by side.

  The operations of the second layer treat every column alike, so they act on the two blocks separately: a matrix product
  whose right factor is two blocks side by side is the two products side by side; an entrywise product with a column
  broadcast over the columns, an array filled with one value, and the combine with a row of biases, likewise.
-/
import proofs.«174296_j13417477833490_1_alg».proof.Proof.LibCatCols
import proofs.«174296_j13417477833490_1_alg».proof.Proof.Region0
import proofs.«174296_j13417477833490_1_alg».proof.Proof.Region1
import Idealize.ShloMosaic.Lib.Pipeline.Value
import Idealize.ShloMosaic.Lib.ValueIdx

noncomputable section

open scoped BigOperators
open Idealize.ShloMosaic Idealize.ShloMosaic.ValueIdx Idealize.ShloMosaic.RowOps

namespace Cert.Layer2

open Cert.KernelIdeal.RegionVal (plainProd plainProd_apply combineLin)

/-- An E×1 column broadcast along both axes to E×w reads, at (e, q), the column at row e. -/
private theorem bcastCol_apply {α : Type} {E w : Nat} (col : (⟨2, ![E, 1]⟩ : Shape).Idx → α)
    (h : (⟨2, ![E, 1]⟩ : Shape).BroadcastsInDim ⟨2, ![E, w]⟩ ![0, 1]) (e : Fin E) (q : Fin w) :
    broadcastInDim (⟨2, ![E, w]⟩ : Shape) ![0, 1] h col (ix2 e q) = col (ix2 e (0 : Fin 1)) := by
  refine broadcastInDim_apply _ h col (ix2 e q) (ix2 e (0 : Fin 1)) fun a => ?_
  match a with
  | ⟨0, _⟩ =>
    show e.val = if E = 1 then 0 else e.val
    split
    · have := e.isLt; omega
    · rfl
  | ⟨1, _⟩ =>
    show 0 = if (1 : Nat) = 1 then 0 else q.val
    rw [if_pos rfl]

/-- A rank-0 value broadcast to any shape reads that value everywhere. -/
private theorem bcastScalar_apply {α : Type} {t : Shape} (z : (⟨0, ![]⟩ : Shape).Idx → α)
    (h : (⟨0, ![]⟩ : Shape).BroadcastsInDim t ![]) (j : t.Idx) :
    broadcastInDim t ![] h z j = z (fun a => a.elim0) :=
  broadcastInDim_apply _ h z j (fun a => a.elim0) (fun a => a.elim0)

/-- A product whose right factor is two blocks side by side is the two products side by side. -/
theorem plainProd_catCols {M K a b c : Nat} (hc : a + b = c) (l : (⟨2, ![M, K]⟩ : Shape).Idx → EReal)
    (x : (⟨2, ![K, a]⟩ : Shape).Idx → EReal) (y : (⟨2, ![K, b]⟩ : Shape).Idx → EReal) :
    plainProd l (catCols hc x y) = catCols hc (plainProd l x) (plainProd l y) := by
  refine eq_catCols hc _ _ _ (fun p q => ?_) (fun p q => ?_)
  · -- column q of the first block: every term of the sum reads the first block
    rw [plainProd_apply, plainProd_apply]
    exact Finset.sum_congr rfl fun κ _ => by rw [catCols_left hc x y κ q]
  · -- column a + q: every term reads the second block at column q
    rw [plainProd_apply, plainProd_apply]
    exact Finset.sum_congr rfl fun κ _ => by rw [catCols_right hc x y κ q]

/-- The entrywise product with a column broadcast over the columns acts on the two blocks separately. -/
theorem mulBcast_catCols {E a b c : Nat} (hc : a + b = c) (u : FVec Ideal ⟨2, ![E, a]⟩ .f32) (v : FVec Ideal ⟨2, ![E, b]⟩ .f32)
    (col : FVec Ideal ⟨2, ![E, 1]⟩ .f32)
    (hb : (⟨2, ![E, 1]⟩ : Shape).BroadcastsInDim ⟨2, ![E, c]⟩ ![0, 1])
    (hba : (⟨2, ![E, 1]⟩ : Shape).BroadcastsInDim ⟨2, ![E, a]⟩ ![0, 1])
    (hbb : (⟨2, ![E, 1]⟩ : Shape).BroadcastsInDim ⟨2, ![E, b]⟩ ![0, 1]) :
    mulf (F := Ideal) (s := ⟨2, ![E, c]⟩) (φ := .f32) (catCols hc u v) (broadcastInDim (⟨2, ![E, c]⟩ : Shape) ![0, 1] hb col)
      = catCols hc (mulf (F := Ideal) u (broadcastInDim (⟨2, ![E, a]⟩ : Shape) ![0, 1] hba col))
          (mulf (F := Ideal) v (broadcastInDim (⟨2, ![E, b]⟩ : Shape) ![0, 1] hbb col)) := by
  refine eq_catCols hc _ _ _ (fun p q => ?_) (fun p q => ?_)
  · -- the column's entry of row p multiplies both sides, whatever the column of the wide array
    rw [mulf_apply, mulf_apply, catCols_left hc u v p q, bcastCol_apply, bcastCol_apply]
  · rw [mulf_apply, mulf_apply, catCols_right hc u v p q, bcastCol_apply, bcastCol_apply]

/-- An array filled with one value is two such arrays side by side. -/
theorem fill_catCols {α : Type} {n a b c : Nat} (hc : a + b = c) (z : (⟨0, ![]⟩ : Shape).Idx → α)
    (hb : (⟨0, ![]⟩ : Shape).BroadcastsInDim ⟨2, ![n, c]⟩ ![])
    (hba : (⟨0, ![]⟩ : Shape).BroadcastsInDim ⟨2, ![n, a]⟩ ![])
    (hbb : (⟨0, ![]⟩ : Shape).BroadcastsInDim ⟨2, ![n, b]⟩ ![]) :
    broadcastInDim (⟨2, ![n, c]⟩ : Shape) ![] hb z
      = catCols hc (broadcastInDim (⟨2, ![n, a]⟩ : Shape) ![] hba z) (broadcastInDim (⟨2, ![n, b]⟩ : Shape) ![] hbb z) := by
  refine eq_catCols hc _ _ _ (fun p q => ?_) (fun p q => ?_)
  · rw [bcastScalar_apply, bcastScalar_apply]
  · rw [bcastScalar_apply, bcastScalar_apply]

/-- The combine acts on the two blocks separately. -/
theorem combineLin_catCols {N a b c : Nat} (hc : a + b = c)
    (A H : (⟨2, ![N, a]⟩ : Shape).Idx → EReal) (A' H' : (⟨2, ![N, b]⟩ : Shape).Idx → EReal)
    (d : (⟨2, ![N, 1]⟩ : Shape).Idx → EReal) (B : (⟨2, ![1, a]⟩ : Shape).Idx → EReal) (B' : (⟨2, ![1, b]⟩ : Shape).Idx → EReal) :
    combineLin (catCols hc A A') (catCols hc H H') d (catCols hc B B') = catCols hc (combineLin A H d B) (combineLin A' H' d B') := by
  refine eq_catCols hc _ _ _ (fun p q => ?_) (fun p q => ?_)
  · -- at (p, q) of the first block: the row's factor is the same, the bias is the first row's entry q
    show (catCols hc A A' (ix2 p ⟨q.val, by omega⟩) + catCols hc H H' (ix2 p ⟨q.val, by omega⟩) * d (ix2 p (0 : Fin 1)))
        + catCols hc B B' (ix2 (0 : Fin 1) ⟨q.val, by omega⟩)
      = (A (ix2 p q) + H (ix2 p q) * d (ix2 p (0 : Fin 1))) + B (ix2 (0 : Fin 1) q)
    rw [catCols_left hc A A' p q, catCols_left hc H H' p q, catCols_left hc B B' (0 : Fin 1) q]
  · -- at (p, a + q): the second block's entries at column q
    show (catCols hc A A' (ix2 p ⟨a + q.val, by omega⟩) + catCols hc H H' (ix2 p ⟨a + q.val, by omega⟩) * d (ix2 p (0 : Fin 1)))
        + catCols hc B B' (ix2 (0 : Fin 1) ⟨a + q.val, by omega⟩)
      = (A' (ix2 p q) + H' (ix2 p q) * d (ix2 p (0 : Fin 1))) + B' (ix2 (0 : Fin 1) q)
    rw [catCols_right hc A A' p q, catCols_right hc H H' p q, catCols_right hc B B' (0 : Fin 1) q]

end Cert.Layer2

end
-- ==== Proof.StagesB.lean ====
/-
  The kernel program's boundary contents, second layer, read back as the reference's stages.

  The kernel computes the two heads at once: it lays the two 96×32 weight arrays side by side, and likewise the two bias
  vectors, and runs one graph convolution of width 64, whose two column blocks it returns as the two results. Every
  operation of that convolution treats the columns alike — the matrix product, the gather of the neighbours' rows, the
  product with the edge weights, the scatter-add into the rows and the combine with the biases — so at every boundary the
  width-64 array is the reference's two width-32 stages side by side, and the two column slices at the end are the
  reference's two results.
-/
import proofs.«174296_j13417477833490_1_alg».proof.Proof.StagesA
import proofs.«174296_j13417477833490_1_alg».proof.Proof.Region2
import proofs.«174296_j13417477833490_1_alg».proof.Proof.Region3
import proofs.«174296_j13417477833490_1_alg».proof.Proof.Layer2
import proofs.«174296_j13417477833490_1_alg».proof.Proof.LibCatCols
import proofs.«174296_j13417477833490_1_alg».proof.Proof.LibRowGather
import proofs.«174296_j13417477833490_1_alg».proof.Proof.LibRowScatterAdd

set_option maxRecDepth 16384

noncomputable section

open scoped BigOperators
open Idealize.ShloMosaic Idealize.ShloMosaic.TcCoe Idealize.SL.Sem Idealize.ShloMosaic.ValueIdx Idealize.ShloMosaic.StableHlo

namespace Cert.Stages

open Cert.KernelIdeal Cert.KernelIdeal.Gen Cert.KernelIdeal.RegionVal
open Cert.ReferenceIdeal.Read (val_main_v1 val_main_v3 val_main_v34 val_main_v41 val_main_v48 val_main_v49 val_main_v77 val_main_v83
  val_main_v85 val_main_v86 val_main_v114 val_main_v120 val_main_v122)
open Idealize.ShloMosaic.RowOps

variable (m : (ℓ : Loc nD τ sig) → Buf (Elt Ideal) ℓ) (ρ : Dev nD → PrngReg)

/-- Thirty-two columns beside thirty-two make sixty-four. -/
theorem h64 : 32 + 32 = 64 := rfl

/-! ## Boundary 5: after the third stretch of host operations -/

/-- The two heads' weights, side by side. -/
theorem W5_wcat (c : Dev nD) :
    W5 m ρ c (Proc.devRef .tc main_v44) = catCols (n := 96) (a := 32) (b := 32) h64 (a3 m c) (a5 m c) := by
  show StableHlo.after hostOps2 (W4 m ρ c) (Proc.devRef .tc main_v44) = _
  dsimp only [hostOps2]
  after_results_simp
  rw [W4_arg3, W4_arg5]
  exact concatenate_cols h64 _ _ _

/-- The two heads' biases as one row: each half is the reference's bias row. -/
theorem W5_bcat (c : Dev nD) : W5 m ρ c (Proc.devRef .tc main_v46)
    = catCols (n := 1) (a := 32) (b := 32) h64 (val_main_v83 (F := Ideal) (a4 m c)) (val_main_v120 (F := Ideal) (a6 m c)) := by
  show StableHlo.after hostOps2 (W4 m ρ c) (Proc.devRef .tc main_v46) = _
  dsimp only [hostOps2]
  after_results
  rw [W4_arg4, W4_arg6]
  have hs : (⟨1, ![32]⟩ : Shape).ShapeCasts ⟨2, ![1, 32]⟩ := by decide
  show shapeCast S1x64 (concatenate S64 0 [⟨S32, a4 m c⟩, ⟨S32, a6 m c⟩] concatenates_S32_S32_S64_d0) shapeCasts_S64_S1x64 = _
  rw [concatenate_row h64 (a4 m c) (a6 m c) concatenates_S32_S32_S64_d0 shapeCasts_S64_S1x64 hs hs]
  unfold val_main_v83 val_main_v120
  rw [reshape_row_eq_bcast (a4 m c) hs _, reshape_row_eq_bcast (a6 m c) hs _]

theorem W5_hidden (c : Dev nD) :
    W5 m ρ c (Proc.devRef .tc main_v43) = val_main_v48 (F := Ideal) (a0 m c) (a1 m c) (a2 m c) (a7 m c) := by
  show StableHlo.after hostOps2 (W4 m ρ c) (Proc.devRef .tc main_v43) = _
  dsimp only [hostOps2]
  after_results_simp
  exact W4_hidden m ρ c
theorem W5_src (c : Dev nD) : W5 m ρ c (Proc.devRef .tc main_v1) = val_main_v1 (F := Ideal) (a7 m c) := by
  show StableHlo.after hostOps2 (W4 m ρ c) (Proc.devRef .tc main_v1) = _
  dsimp only [hostOps2]
  after_results_simp
  exact W4_src m ρ c
theorem W5_dst (c : Dev nD) : W5 m ρ c (Proc.devRef .tc main_v3) = val_main_v3 (F := Ideal) (a7 m c) := by
  show StableHlo.after hostOps2 (W4 m ρ c) (Proc.devRef .tc main_v3) = _
  dsimp only [hostOps2]
  after_results_simp
  exact W4_dst m ρ c
theorem W5_dcol (c : Dev nD) : W5 m ρ c (Proc.devRef .tc main_v12) = val_main_v41 (F := Ideal) (a7 m c) := by
  show StableHlo.after hostOps2 (W4 m ρ c) (Proc.devRef .tc main_v12) = _
  dsimp only [hostOps2]
  after_results_simp
  exact W4_dcol m ρ c
theorem W5_ncol (c : Dev nD) : W5 m ρ c (Proc.devRef .tc main_v28) = val_main_v34 (F := Ideal) (a7 m c) := by
  show StableHlo.after hostOps2 (W4 m ρ c) (Proc.devRef .tc main_v28) = _
  dsimp only [hostOps2]
  after_results_simp
  exact W4_ncol m ρ c

/-! ## Boundary 6: after region 2 (the two heads' dense layer) -/

/-- The two heads' transformed features, side by side: a product whose right factor is two blocks side by side. -/
theorem W6_hcat (c : Dev nD) : W6 m ρ c (Proc.devRef .tc main_v47)
    = catCols (n := 50000) (a := 32) (b := 32) h64 (val_main_v49 (F := Ideal) (a0 m c) (a1 m c) (a2 m c) (a3 m c) (a7 m c))
        (val_main_v86 (F := Ideal) (a0 m c) (a1 m c) (a2 m c) (a5 m c) (a7 m c)) := by
  refine (W6_arr m ρ c 2).trans ((final2 (V5 m ρ) c).trans ?_)
  show plainProd (W5 m ρ c (Proc.devRef .tc main_v43)) (W5 m ρ c (Proc.devRef .tc main_v44)) = _
  rw [W5_hidden, W5_wcat, Cert.Layer2.plainProd_catCols]
  unfold val_main_v49 val_main_v86
  rw [Cert.RefFacts.dense2, Cert.RefFacts.dense2]

theorem W6_bcat (c : Dev nD) : W6 m ρ c (Proc.devRef .tc main_v46)
    = catCols (n := 1) (a := 32) (b := 32) h64 (val_main_v83 (F := Ideal) (a4 m c)) (val_main_v120 (F := Ideal) (a6 m c)) :=
  (W6_of_ne m ρ c main_v46 (by decide)).trans (W5_bcat m ρ c)
theorem W6_src (c : Dev nD) : W6 m ρ c (Proc.devRef .tc main_v1) = val_main_v1 (F := Ideal) (a7 m c) :=
  (W6_of_ne m ρ c main_v1 (by decide)).trans (W5_src m ρ c)
theorem W6_dst (c : Dev nD) : W6 m ρ c (Proc.devRef .tc main_v3) = val_main_v3 (F := Ideal) (a7 m c) :=
  (W6_of_ne m ρ c main_v3 (by decide)).trans (W5_dst m ρ c)
theorem W6_dcol (c : Dev nD) : W6 m ρ c (Proc.devRef .tc main_v12) = val_main_v41 (F := Ideal) (a7 m c) :=
  (W6_of_ne m ρ c main_v12 (by decide)).trans (W5_dcol m ρ c)
theorem W6_ncol (c : Dev nD) : W6 m ρ c (Proc.devRef .tc main_v28) = val_main_v34 (F := Ideal) (a7 m c) :=
  (W6_of_ne m ρ c main_v28 (by decide)).trans (W5_ncol m ρ c)

/-! ## Boundary 7: after the fourth stretch of host operations -/

/-- The two heads' weighted neighbour sums, side by side. The gather of whole rows, the product with the edge weights
    broadcast over the columns and the scatter-add of whole rows into the zero array each act on the two blocks
    separately; what they leave in each block is the reference's stage, whose own copy of the edge weights and of the
    row columns is the same value. -/
theorem W7_aggc (c : Dev nD) : W7 m ρ c (Proc.devRef .tc main_v59)
    = catCols (n := 50000) (a := 32) (b := 32) h64 (val_main_v77 (F := Ideal) (a0 m c) (a1 m c) (a2 m c) (a3 m c) (a7 m c))
        (val_main_v114 (F := Ideal) (a0 m c) (a1 m c) (a2 m c) (a5 m c) (a7 m c)) := by
  show StableHlo.after hostOps3 (W6 m ρ c) (Proc.devRef .tc main_v59) = _
  dsimp only [hostOps3]
  after_results_simp
  rw [W6_dst, W6_hcat, W6_src, W6_ncol]
  rw [rowGather_catCols h64 (by decide) gather_S50000x64_S800000x1_S800000x64_1_0_n_n_0_1_164 ⟨rfl, rfl, rfl, rfl, rfl, rfl⟩
    Cert.ReferenceIdeal.gather_S50000x32_S800000x1_S800000x32_1_0_n_n_0_1_132 ⟨rfl, rfl, rfl, rfl, rfl, rfl⟩
    Cert.ReferenceIdeal.gather_S50000x32_S800000x1_S800000x32_1_0_n_n_0_1_132 ⟨rfl, rfl, rfl, rfl, rfl, rfl⟩]
  rw [Cert.Layer2.mulBcast_catCols h64 _ _ _ _ (by decide) (by decide)]
  rw [Cert.Layer2.fill_catCols h64 (constant S_ .f32 0x00000000#32) bcast_S_S50000x64 (by decide) (by decide)]
  unfold Host.scatterAdd
  rw [Ideal.hostScatterAdd_def]
  rw [rowScatterAdd_catCols h64 scatter_S50000x64_S800000x1_S800000x64_1_0_0_1 ⟨rfl, rfl, rfl, rfl⟩
    Cert.ReferenceIdeal.scatter_S50000x32_S800000x1_S800000x32_1_0_0_1 ⟨rfl, rfl, rfl, rfl⟩
    Cert.ReferenceIdeal.scatter_S50000x32_S800000x1_S800000x32_1_0_0_1 ⟨rfl, rfl, rfl, rfl⟩]
  rfl

theorem W7_hcat (c : Dev nD) : W7 m ρ c (Proc.devRef .tc main_v47)
    = catCols (n := 50000) (a := 32) (b := 32) h64 (val_main_v49 (F := Ideal) (a0 m c) (a1 m c) (a2 m c) (a3 m c) (a7 m c))
        (val_main_v86 (F := Ideal) (a0 m c) (a1 m c) (a2 m c) (a5 m c) (a7 m c)) := by
  show StableHlo.after hostOps3 (W6 m ρ c) (Proc.devRef .tc main_v47) = _
  dsimp only [hostOps3]
  after_results_simp
  exact W6_hcat m ρ c
theorem W7_dcol (c : Dev nD) : W7 m ρ c (Proc.devRef .tc main_v12) = val_main_v41 (F := Ideal) (a7 m c) := by
  show StableHlo.after hostOps3 (W6 m ρ c) (Proc.devRef .tc main_v12) = _
  dsimp only [hostOps3]
  after_results_simp
  exact W6_dcol m ρ c
theorem W7_bcat (c : Dev nD) : W7 m ρ c (Proc.devRef .tc main_v46)
    = catCols (n := 1) (a := 32) (b := 32) h64 (val_main_v83 (F := Ideal) (a4 m c)) (val_main_v120 (F := Ideal) (a6 m c)) := by
  show StableHlo.after hostOps3 (W6 m ρ c) (Proc.devRef .tc main_v46) = _
  dsimp only [hostOps3]
  after_results_simp
  exact W6_bcat m ρ c

/-! ## Boundary 8: after region 3 (the two heads' combine) -/

/-- The two heads' outputs, side by side: the combine acts on the two blocks separately, and on each block it is the
    reference's last stage (whose own copy of the degree column is the same column). -/
theorem W8_out (c : Dev nD) : W8 m ρ c (Proc.devRef .tc main_v60)
    = catCols (n := 50000) (a := 32) (b := 32) h64
        (val_main_v85 (F := Ideal) (a0 m c) (a1 m c) (a2 m c) (a3 m c) (a4 m c) (a7 m c))
        (val_main_v122 (F := Ideal) (a0 m c) (a1 m c) (a2 m c) (a5 m c) (a6 m c) (a7 m c)) := by
  refine (W8_arr m ρ c 4).trans ((final3 (V7 m ρ) c).trans ?_)
  show combineLin (W7 m ρ c (Proc.devRef .tc main_v59)) (W7 m ρ c (Proc.devRef .tc main_v47))
    (W7 m ρ c (Proc.devRef .tc main_v12)) (W7 m ρ c (Proc.devRef .tc main_v46)) = _
  rw [W7_aggc, W7_hcat, W7_dcol, W7_bcat, Cert.Layer2.combineLin_catCols]
  rw [Cert.RefFacts.lin_stage_mu, Cert.RefFacts.lin_stage_ls]
  rfl

/-! ## Boundary 9: the two results -/

/-- The first result: the first thirty-two columns. -/
theorem W9_mu (c : Dev nD) : W9 m ρ c (Proc.devRef .tc main_v61)
    = val_main_v85 (F := Ideal) (a0 m c) (a1 m c) (a2 m c) (a3 m c) (a4 m c) (a7 m c) := by
  show StableHlo.after hostOps4 (W8 m ρ c) (Proc.devRef .tc main_v61) = _
  dsimp only [hostOps4]
  after_results_simp
  rw [W8_out]
  exact slice_cols_left h64 _ _ _

/-- The second result: the last thirty-two columns. -/
theorem W9_ls (c : Dev nD) : W9 m ρ c (Proc.devRef .tc main_v62)
    = val_main_v122 (F := Ideal) (a0 m c) (a1 m c) (a2 m c) (a5 m c) (a6 m c) (a7 m c) := by
  show StableHlo.after hostOps4 (W8 m ρ c) (Proc.devRef .tc main_v62) = _
  dsimp only [hostOps4]
  after_results_simp
  rw [W8_out]
  exact slice_cols_right h64 _ _ _

end Cert.Stages

end
-- ==== Proof.lean ====
/-
  A two-layer graph convolution encoder with two heads, against its plain reference: equal results over the extended
  reals.

  Both programs compute, from node features x, weights and biases, and an edge list (source row, target row):
  the degrees deg = (number of edges into each node) + 1 and r = deg^(-1/2); the edge weights r[source] · r[target]; and
  three graph convolutions, each  out = (Σ over edges into the node of weight · (h W)[source]) + (h W) · r² + bias, the first
  followed by a cut-off at zero, the other two (the heads) applied to the result of the first.

  The kernel program runs the dense product and the combine of each layer as gridded regions over blocks of 2000 rows
  (the regions' outputs tile their arrays: Region0 … Region3 give each output array as one function of the region's
  inputs), keeps the gathers and scatter-adds on the host exactly as the reference has them, and computes the two heads
  at once by laying their weights and biases side by side: one convolution of width 64 whose two column blocks are the
  two results. At the extended reals a change of float format is the identity and every sum is exact, and each
  operation of the convolution treats the columns alike, so at every boundary of the kernel program's run the buffers
  hold the reference's own stages (StagesA, StagesB), the width-64 arrays being the two width-32 stages side by side.
  No law of arithmetic beyond re-indexing of exact sums is used, so the finiteness of the inputs is never opened, and the
  edge list may hold any integers: out-of-range rows are clamped by the gathers and dropped by the scatter-adds in both
  programs alike.

  The three frames are the generated ones (the reference's is its generated run with the results dropped); the ideal
  pass rewrote nothing, so the kernel program is its own idealization.
-/
import proofs.«174296_j13417477833490_1_alg».proof.Defs
import proofs.«174296_j13417477833490_1_alg».proof.Proof.Gen.Kernel
import proofs.«174296_j13417477833490_1_alg».proof.Proof.Gen.Kernel.Frame
import proofs.«174296_j13417477833490_1_alg».proof.Proof.Gen.KernelIdeal
import proofs.«174296_j13417477833490_1_alg».proof.Proof.Gen.KernelIdeal.Frame
import proofs.«174296_j13417477833490_1_alg».proof.Proof.Gen.ReferenceIdeal
import proofs.«174296_j13417477833490_1_alg».proof.Proof.Gen.ReferenceIdeal.Run
import proofs.«174296_j13417477833490_1_alg».proof.Proof.Gen.ReferenceIdeal.Read
import proofs.«174296_j13417477833490_1_alg».proof.Proof.Gen.Pre_finite_inputs
import proofs.«174296_j13417477833490_1_alg».proof.Proof.KernelRun
import proofs.«174296_j13417477833490_1_alg».proof.Proof.StagesB
import Idealize.ShloMosaic.Adequacy
import Idealize.ShloMosaic.Init

noncomputable section

namespace Cert.Proof

open Idealize.ShloMosaic Idealize.SL.Sem
open Cert.ReferenceIdeal.Read (val_main_v85 val_main_v122 val_main_v85_eq val_main_v122_eq)

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories that agree on the arguments both programs end with the reference's two last stages of those
    arguments as results: the kernel program by its run with the results named at the last boundary, read back through
    the boundaries; the reference by its run. -/
theorem algebraic : Cert.algebraic_KernelIdeal_ReferenceIdeal := by
  intro m ρ m' ρ' _ hagree
  refine ⟨fun c => val_main_v85 (F := Ideal) (Cert.Stages.a0 m c) (Cert.Stages.a1 m c) (Cert.Stages.a2 m c)
      (Cert.Stages.a3 m c) (Cert.Stages.a4 m c) (Cert.Stages.a7 m c),
    fun c => val_main_v122 (F := Ideal) (Cert.Stages.a0 m c) (Cert.Stages.a1 m c) (Cert.Stages.a2 m c)
      (Cert.Stages.a5 m c) (Cert.Stages.a6 m c) (Cert.Stages.a7 m c), ?_, ?_⟩
  · exact (θ_run Cert.KernelIdeal.defs _ _).mono
      (fun _ h c => ⟨(h c).1.trans (Cert.Stages.W9_mu m ρ c), (h c).2.1.trans (Cert.Stages.W9_ls m ρ c), (h c).2.2⟩)
      (Cert.KernelIdeal.Named.run_named (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨e0, e1, e2, e3, e4, e5, e6, e7⟩ := hagree c
      rw [val_main_v85_eq, e0, e1, e2, e3, e4, e7]
    · obtain ⟨e0, e1, e2, e3, e4, e5, e6, e7⟩ := hagree c
      rw [val_main_v122_eq, e0, e1, e2, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
